-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v81)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v81) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v91) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x256 : Shape := ⟨2, ![50000, 256]⟩
abbrev S2x800000 : Shape := ⟨2, ![2, 800000]⟩
abbrev S256x128 : Shape := ⟨2, ![256, 128]⟩
abbrev S128 : Shape := ⟨1, ![128]⟩
abbrev S128x128 : Shape := ⟨2, ![128, 128]⟩
abbrev S128x64 : Shape := ⟨2, ![128, 64]⟩
abbrev S64 : Shape := ⟨1, ![64]⟩
abbrev S_ : Shape := ⟨0, ![]⟩

class Facts : Prop where
  bcast_S_S50000x256 : S_.BroadcastsInDim S50000x256 (![] : Fin 0 → Fin S50000x256.rank)
  reducesTo_S50000x256_S_d0_1 : S50000x256.ReducesTo [0, 1] S_
  h_S_ : 0 < S_.numel
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part3 {F : FTy → Type} [FloatOps F] (main_v48 : IVec S_ 1) (main_v49 : FVec F S64 .f32) (main_v50 : FVec F S64 .f32) : IVec S_ 1 :=
  let main_v51 : IVec S64 1 := cmpf .olt main_v49 main_v50
  let main_c_19 : IVec S_ 1 := constantI S_ 1 1#1
  let main_v52 : IVec S_ 1 := (fun x v => Host.reduce IntOp.andi x v reducesTo_S64_S_d0 h_S_) main_v51 main_c_19
  let main_v53 : IVec S_ 1 := andi main_v48 main_v52
  main_v53

def fn_part2 {F : FTy → Type} [FloatOps F] (main_arg8 : FVec F S128x128 .f32) (main_arg9 : FVec F S128 .f32) (main_arg10 : FVec F S128x64 .f32) (main_arg11 : FVec F S64 .f32) (main_v33 : IVec S_ 1) : IVec S_ 1 :=
  let main_v34 : FVec F S128x128 .f32 := Host.absf main_arg8
  let main_cst_12 : FVec F S_ .f32 := constant S_ .f32 0x7F800000#32
  let main_v35 : FVec F S128x128 .f32 := broadcastInDim S128x128 ![] bcast_S_S128x128 main_cst_12
  let main_v36 : IVec S128x128 1 := cmpf .olt main_v34 main_v35
  let main_c_13 : IVec S_ 1 := constantI S_ 1 1#1
  let main_v37 : IVec S_ 1 := (fun x v => Host.reduce IntOp.andi x v reducesTo_S128x128_S_d0_1 h_S_) main_v36 main_c_13
  let main_v38 : IVec S_ 1 := andi main_v33 main_v37
  let main_v39 : FVec F S128 .f32 := Host.absf main_arg9
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128x64 .f32 := Host.absf main_arg10
  let main_cst_16 : FVec F S_ .f32 := constant S_ .f32 0x7F800000#32
  let main_v45 : FVec F S128x64 .f32 := broadcastInDim S128x64 ![] bcast_S_S128x64 main_cst_16
  let main_v46 : IVec S128x64 1 := cmpf .olt main_v44 main_v45
  let main_c_17 : IVec S_ 1 := constantI S_ 1 1#1
  let main_v47 : IVec S_ 1 := (fun x v => Host.reduce IntOp.andi x v reducesTo_S128x64_S_d0_1 h_S_) main_v46 main_c_17
  let main_v48 : IVec S_ 1 := andi main_v43 main_v47
  let main_v49 : FVec F S64 .f32 := Host.absf main_arg11
  let main_cst_18 : FVec F S_ .f32 := constant S_ .f32 0x7F800000#32
  let main_v50 : FVec F S64 .f32 := broadcastInDim S64 ![] bcast_S_S64 main_cst_18
  fn_part3 (F := F) main_v48 main_v49 main_v50

def fn_part1 {F : FTy → Type} [FloatOps F] (main_arg5 : FVec F S128 .f32) (main_arg6 : FVec F S128x128 .f32) (main_arg7 : FVec F S128 .f32) (main_arg8 : FVec F S128x128 .f32) (main_arg9 : FVec F S128 .f32) (main_arg10 : FVec F S128x64 .f32) (main_arg11 : FVec F S64 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg6
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg7
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg8 main_arg9 main_arg10 main_arg11 main_v33

def fn {F : FTy → Type} [FloatOps F] (main_arg0 : FVec F S50000x256 .f32) (main_arg1 : IVec S2x800000 32) (main_arg2 : FVec F S256x128 .f32) (main_arg3 : FVec F S128 .f32) (main_arg4 : FVec F S128x128 .f32) (main_arg5 : FVec F S128 .f32) (main_arg6 : FVec F S128x128 .f32) (main_arg7 : FVec F S128 .f32) (main_arg8 : FVec F S128x128 .f32) (main_arg9 : FVec F S128 .f32) (main_arg10 : FVec F S128x64 .f32) (main_arg11 : FVec F S64 .f32) : IVec S_ 1 :=
  let main_v0 : FVec F S50000x256 .f32 := Host.absf main_arg0
  let main_cst : FVec F S_ .f32 := constant S_ .f32 0x7F800000#32
  let main_v1 : FVec F S50000x256 .f32 := broadcastInDim S50000x256 ![] bcast_S_S50000x256 main_cst
  let main_v2 : IVec S50000x256 1 := cmpf .olt main_v0 main_v1
  let main_c : IVec S_ 1 := constantI S_ 1 1#1
  let main_v3 : IVec S_ 1 := (fun x v => Host.reduce IntOp.andi x v reducesTo_S50000x256_S_d0_1 h_S_) main_v2 main_c
  let main_v4 : FVec F S256x128 .f32 := Host.absf main_arg2
  let main_cst_0 : FVec F S_ .f32 := constant S_ .f32 0x7F800000#32
  let main_v5 : FVec F S256x128 .f32 := broadcastInDim S256x128 ![] bcast_S_S256x128 main_cst_0
  let main_v6 : IVec S256x128 1 := cmpf .olt main_v4 main_v5
  let main_c_1 : IVec S_ 1 := constantI S_ 1 1#1
  let main_v7 : IVec S_ 1 := (fun x v => Host.reduce IntOp.andi x v reducesTo_S256x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_arg6 main_arg7 main_arg8 main_arg9 main_arg10 main_arg11 main_v13 main_v16
-- ==== Kernel.lean ====
abbrev S50000x256 : Shape := ⟨2, ![50000, 256]⟩
abbrev S2x800000 : Shape := ⟨2, ![2, 800000]⟩
abbrev S256x128 : Shape := ⟨2, ![256, 128]⟩
abbrev S128 : Shape := ⟨1, ![128]⟩
abbrev S128x128 : Shape := ⟨2, ![128, 128]⟩
abbrev S128x64 : Shape := ⟨2, ![128, 64]⟩
abbrev S64 : Shape := ⟨1, ![64]⟩
abbrev S50000 : Shape := ⟨1, ![50000]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S1x128 : Shape := ⟨2, ![1, 128]⟩
abbrev S50000x128 : Shape := ⟨2, ![50000, 128]⟩
abbrev S5000x256 : Shape := ⟨2, ![5000, 256]⟩
abbrev S5000x128 : Shape := ⟨2, ![5000, 128]⟩
abbrev S850000x128 : Shape := ⟨2, ![850000, 128]⟩
abbrev S1x64 : Shape := ⟨2, ![1, 64]⟩
abbrev S50000x64 : Shape := ⟨2, ![50000, 64]⟩
abbrev S5000x64 : Shape := ⟨2, ![5000, 64]⟩

abbrev nBuf : Space → Nat
  | .hbm => 113
  | .vmem => 42
  | .smem => 0
  | _ => 0

abbrev bufTy : (tb : Table) → Fin (tcTables nBuf tb) → BufTy
  | .hbm, ⟨0, _⟩ => ⟨S50000x256, .f32⟩
  | .hbm, ⟨1, _⟩ => ⟨S2x800000, .i32⟩
  | .hbm, ⟨2, _⟩ => ⟨S256x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S128x128, .f32⟩
  | .hbm, ⟨9, _⟩ => ⟨S128, .f32⟩
  | .hbm, ⟨10, _⟩ => ⟨S128x64, .f32⟩
  | .hbm, ⟨11, _⟩ => ⟨S64, .f32⟩
  | .hbm, ⟨12, _⟩ => ⟨S50000, .i32⟩
  | .hbm, ⟨13, _⟩ => ⟨S1x800000, .i32⟩
  | .hbm, ⟨14, _⟩ => ⟨S800000, .i32⟩
  | .hbm, ⟨15, _⟩ => ⟨S850000, .i32⟩
  | .hbm, ⟨16, _⟩ => ⟨S1x800000, .i32⟩
  | .hbm, ⟨17, _⟩ => ⟨S800000, .i32⟩
  | .hbm, ⟨18, _⟩ => ⟨S850000, .i32⟩
  | .hbm, ⟨19, _⟩ => ⟨S_, .f32⟩
  | .hbm, ⟨20, _⟩ => ⟨S850000, .f32⟩
  | .hbm, ⟨21, _⟩ => ⟨S_, .f32⟩
  | .hbm, ⟨22, _⟩ => ⟨S50000, .f32⟩
  | .hbm, ⟨23, _⟩ => ⟨S850000x1, .i32⟩
  | .hbm, ⟨24, _⟩ => ⟨S50000, .f32⟩
  | .hbm, ⟨25, _⟩ => ⟨S_, .f32⟩
  | .hbm, ⟨26, _⟩ => ⟨S50000, .f32⟩
  | .hbm, ⟨27, _⟩ => ⟨S50000, .i1⟩
  | .hbm, ⟨28, _⟩ => ⟨S50000, .f32⟩
  | .hbm, ⟨29, _⟩ => ⟨S_, .f32⟩
  | .hbm, ⟨30, _⟩ => ⟨S_, .f32⟩
  | .hbm, ⟨31, _⟩ => ⟨S50000, .f32⟩
  | .hbm, ⟨32, _⟩ => ⟨S50000, .f32⟩
  | .hbm, ⟨33, _⟩ => ⟨S_, .i32⟩
  | .hbm, ⟨34, _⟩ => ⟨S850000, .i32⟩
  | .hbm, ⟨35, _⟩ => ⟨S850000, .i1⟩
  | .hbm, ⟨36, _⟩ => ⟨S_, .i32⟩
  | .hbm, ⟨37, _⟩ => ⟨S850000, .i32⟩
  | .hbm, ⟨38, _⟩ => ⟨S850000, .i32⟩
  | .hbm, ⟨39, _⟩ => ⟨S850000, .i32⟩
  | .hbm, ⟨40, _⟩ => ⟨S850000x1, .i32⟩
  | .hbm, ⟨41, _⟩ => ⟨S850000, .f32⟩
  | .hbm, ⟨42, _⟩ => ⟨S_, .i32⟩
  | .hbm, ⟨43, _⟩ => ⟨S850000, .i32⟩
  | .hbm, ⟨44, _⟩ => ⟨S850000, .i1⟩
  | .hbm, ⟨45, _⟩ => ⟨S_, .i32⟩
  | .hbm, ⟨46, _⟩ => ⟨S850000, .i32⟩
  | .hbm, ⟨47, _⟩ => ⟨S850000, .i32⟩
  | .hbm, ⟨48, _⟩ => ⟨S850000, .i32⟩
  | .hbm, ⟨49, _⟩ => ⟨S850000x1, .i32⟩
  | .hbm, ⟨50, _⟩ => ⟨S850000, .f32⟩
  | .hbm, ⟨51, _⟩ => ⟨S850000, .f32⟩
  | .hbm, ⟨52, _⟩ => ⟨S1x128, .f32⟩
  | .hbm, ⟨53, _⟩ => ⟨S50000x128, .f32⟩
  | .hbm, ⟨54, _⟩ => ⟨S50000x128, .f32⟩
  | .hbm, ⟨55, _⟩ => ⟨S_, .i32⟩
  | .hbm, ⟨56, _⟩ => ⟨S850000, .i32⟩
  | .hbm, ⟨57, _⟩ => ⟨S850000, .i1⟩
  | .hbm, ⟨58, _⟩ => ⟨S_, .i32⟩
  | .hbm, ⟨59, _⟩ => ⟨S850000, .i32⟩
  | .hbm, ⟨60, _⟩ => ⟨S850000, .i32⟩
  | .hbm, ⟨61, _⟩ => ⟨S850000, .i32⟩
  | .hbm, ⟨62, _⟩ => ⟨S850000x1, .i32⟩
  | .hbm, ⟨63, _⟩ => ⟨S850000x128, .f32⟩
  | .hbm, ⟨64, _⟩ => ⟨S850000x1, .f32⟩
  | .hbm, ⟨65, _⟩ => ⟨S850000x128, .f32⟩
  | .hbm, ⟨66, _⟩ => ⟨S850000x128, .f32⟩
  | .hbm, ⟨67, _⟩ => ⟨S_, .f32⟩
  | .hbm, ⟨68, _⟩ => ⟨S50000x128, .f32⟩
  | .hbm, ⟨69, _⟩ => ⟨S850000x1, .i32⟩
  | .hbm, ⟨70, _⟩ => ⟨S50000x128, .f32⟩
  | .hbm, ⟨71, _⟩ => ⟨S1x128, .f32⟩
  | .hbm, ⟨72, _⟩ => ⟨S50000x128, .f32⟩
  | .hbm, ⟨73, _⟩ => ⟨S50000x128, .f32⟩
  | .hbm, ⟨74, _⟩ => ⟨S_, .i32⟩
  | .hbm, ⟨75, _⟩ => ⟨S850000, .i32⟩
  | .hbm, ⟨76, _⟩ => ⟨S850000, .i1⟩
  | .hbm, ⟨77, _⟩ => ⟨S_, .i32⟩
  | .hbm, ⟨78, _⟩ => ⟨S850000, .i32⟩
  | .hbm, ⟨79, _⟩ => ⟨S850000, .i32⟩
  | .hbm, ⟨80, _⟩ => ⟨S850000, .i32⟩
  | .hbm, ⟨81, _⟩ => ⟨S850000x1, .i32⟩
  | .hbm, ⟨82, _⟩ => ⟨S850000x128, .f32⟩
  | .hbm, ⟨83, _⟩ => ⟨S850000x1, .f32⟩
  | .hbm, ⟨84, _⟩ => ⟨S850000x128, .f32⟩
  | .hbm, ⟨85, _⟩ => ⟨S850000x128, .f32⟩
  | .hbm, ⟨86, _⟩ => ⟨S_, .f32⟩
  | .hbm, ⟨87, _⟩ => ⟨S50000x128, .f32⟩
  | .hbm, ⟨88, _⟩ => ⟨S850000x1, .i32⟩
  | .hbm, ⟨89, _⟩ => ⟨S50000x128, .f32⟩
  | .hbm, ⟨90, _⟩ => ⟨S1x128, .f32⟩
  | .hbm, ⟨91, _⟩ => ⟨S50000x128, .f32⟩
  | .hbm, ⟨92, _⟩ => ⟨S50000x128, .f32⟩
  | .hbm, ⟨93, _⟩ => ⟨S_, .i32⟩
  | .hbm, ⟨94, _⟩ => ⟨S850000, .i32⟩
  | .hbm, ⟨95, _⟩ => ⟨S850000, .i1⟩
  | .hbm, ⟨96, _⟩ => ⟨S_, .i32⟩
  | .hbm, ⟨97, _⟩ => ⟨S850000, .i32⟩
  | .hbm, ⟨98, _⟩ => ⟨S850000, .i32⟩
  | .hbm, ⟨99, _⟩ => ⟨S850000, .i32⟩
  | .hbm, ⟨100, _⟩ => ⟨S850000x1, .i32⟩
  | .hbm, ⟨101, _⟩ => ⟨S850000x128, .f32⟩
  | .hbm, ⟨102, _⟩ => ⟨S850000x1, .f32⟩
  | .hbm, ⟨103, _⟩ => ⟨S850000x128, .f32⟩
  | .hbm, ⟨104, _⟩ => ⟨S850000x128, .f32⟩
  | .hbm, ⟨105, _⟩ => ⟨S_, .f32⟩
  | .hbm, ⟨106, _⟩ => ⟨S50000x128, .f32⟩
  | .hbm, ⟨107, _⟩ => ⟨S850000x1, .i32⟩
  | .hbm, ⟨108, _⟩ => ⟨S50000x128, .f32⟩
  | .hbm, ⟨109, _⟩ => ⟨S1x128, .f32⟩
  | .hbm, ⟨110, _⟩ => ⟨S50000x128, .f32⟩
  | .hbm, ⟨111, _⟩ => ⟨S1x64, .f32⟩
  | .hbm, ⟨112, _⟩ => ⟨S50000x64, .f32⟩
  | .local _ .vmem, ⟨0, _⟩ => ⟨S5000x256, .f32⟩
  | .local _ .vmem, ⟨1, _⟩ => ⟨S5000x256, .f32⟩
  | .local _ .vmem, ⟨2, _⟩ => ⟨S256x128, .f32⟩
  | .local _ .vmem, ⟨3, _⟩ => ⟨S1x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S5000x128, .f32⟩
  | .local _ .vmem, ⟨8, _⟩ => ⟨S128x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S1x128, .f32⟩
  | .local _ .vmem, ⟨14, _⟩ => ⟨S5000x128, .f32⟩
  | .local _ .vmem, ⟨15, _⟩ => ⟨S5000x128, .f32⟩
  | .local _ .vmem, ⟨16, _⟩ => ⟨S5000x128, .f32⟩
  | .local _ .vmem, ⟨17, _⟩ => ⟨S5000x128, .f32⟩
  | .local _ .vmem, ⟨18, _⟩ => ⟨S128x128, .f32⟩
  | .local _ .vmem, ⟨19, _⟩ => ⟨S5000x128, .f32⟩
  | .local _ .vmem, ⟨20, _⟩ => ⟨S5000x128, .f32⟩
  | .local _ .vmem, ⟨21, _⟩ => ⟨S5000x128, .f32⟩
  | .local _ .vmem, ⟨22, _⟩ => ⟨S5000x128, .f32⟩
  | .local _ .vmem, ⟨23, _⟩ => ⟨S1x128, .f32⟩
  | .local _ .vmem, ⟨24, _⟩ => ⟨S5000x128, .f32⟩
  | .local _ .vmem, ⟨25, _⟩ => ⟨S5000x128, .f32⟩
  | .local _ .vmem, ⟨26, _⟩ => ⟨S5000x128, .f32⟩
  | .local _ .vmem, ⟨27, _⟩ => ⟨S5000x128, .f32⟩
  | .local _ .vmem, ⟨28, _⟩ => ⟨S128x128, .f32⟩
  | .local _ .vmem, ⟨29, _⟩ => ⟨S5000x128, .f32⟩
  | .local _ .vmem, ⟨30, _⟩ => ⟨S5000x128, .f32⟩
  | .local _ .vmem, ⟨31, _⟩ => ⟨S5000x128, .f32⟩
  | .local _ .vmem, ⟨32, _⟩ => ⟨S5000x128, .f32⟩
  | .local _ .vmem, ⟨33, _⟩ => ⟨S1x128, .f32⟩
  | .local _ .vmem, ⟨34, _⟩ => ⟨S5000x128, .f32⟩
  | .local _ .vmem, ⟨35, _⟩ => ⟨S5000x128, .f32⟩
  | .local _ .vmem, ⟨36, _⟩ => ⟨S5000x128, .f32⟩
  | .local _ .vmem, ⟨37, _⟩ => ⟨S5000x128, .f32⟩
  | .local _ .vmem, ⟨38, _⟩ => ⟨S128x64, .f32⟩
  | .local _ .vmem, ⟨39, _⟩ => ⟨S1x64, .f32⟩
  | .local _ .vmem, ⟨40, _⟩ => ⟨S5000x64, .f32⟩
  | .local _ .vmem, ⟨41, _⟩ => ⟨S5000x64, .f32⟩
  | _, _ => ⟨S50000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | _, _ => false

abbrev semScoped : Fin 0 → Bool
  | ⟨_, h⟩ => absurd h (Nat.not_lt_zero _)

abbrev dmaSemScoped : Fin 42 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | _ => false

abbrev sig : RefSig :=
  ofTc nBuf bufTy 0 42 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_cst : Ref sig .tc := ⟨.hbm, 19, rfl⟩
abbrev main_v7 : Ref sig .tc := ⟨.hbm, 20, rfl⟩
abbrev main_cst_0 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_cst_1 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_cst_2 : Ref sig .tc := ⟨.hbm, 29, rfl⟩
abbrev main_call0_v0 : Ref sig .tc := ⟨.hbm, 30, rfl⟩
abbrev main_call0_v1 : Ref sig .tc := ⟨.hbm, 31, rfl⟩
abbrev main_v14 : Ref sig .tc := ⟨.hbm, 32, rfl⟩
abbrev main_c : Ref sig .tc := ⟨.hbm, 33, rfl⟩
abbrev main_v15 : Ref sig .tc := ⟨.hbm, 34, rfl⟩
abbrev main_v16 : Ref sig .tc := ⟨.hbm, 35, rfl⟩
abbrev main_c_3 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_c_4 : Ref sig .tc := ⟨.hbm, 42, rfl⟩
abbrev main_v22 : Ref sig .tc := ⟨.hbm, 43, rfl⟩
abbrev main_v23 : Ref sig .tc := ⟨.hbm, 44, rfl⟩
abbrev main_c_5 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_c_6 : Ref sig .tc := ⟨.hbm, 55, rfl⟩
abbrev main_v33 : Ref sig .tc := ⟨.hbm, 56, rfl⟩
abbrev main_v34 : Ref sig .tc := ⟨.hbm, 57, rfl⟩
abbrev main_c_7 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_cst_8 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_c_9 : Ref sig .tc := ⟨.hbm, 74, rfl⟩
abbrev main_v49 : Ref sig .tc := ⟨.hbm, 75, rfl⟩
abbrev main_v50 : Ref sig .tc := ⟨.hbm, 76, rfl⟩
abbrev main_c_10 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_cst_11 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_c_12 : Ref sig .tc := ⟨.hbm, 93, rfl⟩
abbrev main_v65 : Ref sig .tc := ⟨.hbm, 94, rfl⟩
abbrev main_v66 : Ref sig .tc := ⟨.hbm, 95, rfl⟩
abbrev main_c_13 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_cst_14 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev main_v80 : Ref sig .tc := ⟨.hbm, 111, rfl⟩
abbrev main_v81 : Ref sig .tc := ⟨.hbm, 112, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg2_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg2_0 : Ref sig .tc := ⟨.vmem, 14, rfl⟩
abbrev cc2_stg2_1 : Ref sig .tc := ⟨.vmem, 15, rfl⟩
abbrev cc3_stg0_0 : Ref sig .tc := ⟨.vmem, 16, rfl⟩
abbrev cc3_stg0_1 : Ref sig .tc := ⟨.vmem, 17, rfl⟩
abbrev cc3_stg1_0 : Ref sig .tc := ⟨.vmem, 18, rfl⟩
abbrev cc3_stg2_0 : Ref sig .tc := ⟨.vmem, 19, rfl⟩
abbrev cc3_stg2_1 : Ref sig .tc := ⟨.vmem, 20, rfl⟩
abbrev cc4_stg0_0 : Ref sig .tc := ⟨.vmem, 21, rfl⟩
abbrev cc4_stg0_1 : Ref sig .tc := ⟨.vmem, 22, rfl⟩
abbrev cc4_stg1_0 : Ref sig .tc := ⟨.vmem, 23, rfl⟩
abbrev cc4_stg2_0 : Ref sig .tc := ⟨.vmem, 24, rfl⟩
abbrev cc4_stg2_1 : Ref sig .tc := ⟨.vmem, 25, rfl⟩
abbrev cc5_stg0_0 : Ref sig .tc := ⟨.vmem, 26, rfl⟩
abbrev cc5_stg0_1 : Ref sig .tc := ⟨.vmem, 27, rfl⟩
abbrev cc5_stg1_0 : Ref sig .tc := ⟨.vmem, 28, rfl⟩
abbrev cc5_stg2_0 : Ref sig .tc := ⟨.vmem, 29, rfl⟩
abbrev cc5_stg2_1 : Ref sig .tc := ⟨.vmem, 30, rfl⟩
abbrev cc6_stg0_0 : Ref sig .tc := ⟨.vmem, 31, rfl⟩
abbrev cc6_stg0_1 : Ref sig .tc := ⟨.vmem, 32, rfl⟩
abbrev cc6_stg1_0 : Ref sig .tc := ⟨.vmem, 33, rfl⟩
abbrev cc6_stg2_0 : Ref sig .tc := ⟨.vmem, 34, rfl⟩
abbrev cc6_stg2_1 : Ref sig .tc := ⟨.vmem, 35, rfl⟩
abbrev cc7_stg0_0 : Ref sig .tc := ⟨.vmem, 36, rfl⟩
abbrev cc7_stg0_1 : Ref sig .tc := ⟨.vmem, 37, rfl⟩
abbrev cc7_stg1_0 : Ref sig .tc := ⟨.vmem, 38, rfl⟩
abbrev cc7_stg2_0 : Ref sig .tc := ⟨.vmem, 39, rfl⟩
abbrev cc7_stg3_0 : Ref sig .tc := ⟨.vmem, 40, rfl⟩
abbrev cc7_stg3_1 : Ref sig .tc := ⟨.vmem, 41, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem2_1 : DmaSem sig := 10
abbrev cc2_sem0_0 : DmaSem sig := 11
abbrev cc2_sem0_1 : DmaSem sig := 12
abbrev cc2_sem1_0 : DmaSem sig := 13
abbrev cc2_sem2_0 : DmaSem sig := 14
abbrev cc2_sem2_1 : DmaSem sig := 15
abbrev cc3_sem0_0 : DmaSem sig := 16
abbrev cc3_sem0_1 : DmaSem sig := 17
abbrev cc3_sem1_0 : DmaSem sig := 18
abbrev cc3_sem2_0 : DmaSem sig := 19
abbrev cc3_sem2_1 : DmaSem sig := 20
abbrev cc4_sem0_0 : DmaSem sig := 21
abbrev cc4_sem0_1 : DmaSem sig := 22
abbrev cc4_sem1_0 : DmaSem sig := 23
abbrev cc4_sem2_0 : DmaSem sig := 24
abbrev cc4_sem2_1 : DmaSem sig := 25
abbrev cc5_sem0_0 : DmaSem sig := 26
abbrev cc5_sem0_1 : DmaSem sig := 27
abbrev cc5_sem1_0 : DmaSem sig := 28
abbrev cc5_sem2_0 : DmaSem sig := 29
abbrev cc5_sem2_1 : DmaSem sig := 30
abbrev cc6_sem0_0 : DmaSem sig := 31
abbrev cc6_sem0_1 : DmaSem sig := 32
abbrev cc6_sem1_0 : DmaSem sig := 33
abbrev cc6_sem2_0 : DmaSem sig := 34
abbrev cc6_sem2_1 : DmaSem sig := 35
abbrev cc7_sem0_0 : DmaSem sig := 36
abbrev cc7_sem0_1 : DmaSem sig := 37
abbrev cc7_sem1_0 : DmaSem sig := 38
abbrev cc7_sem2_0 : DmaSem sig := 39
abbrev cc7_sem3_0 : DmaSem sig := 40
abbrev cc7_sem3_1 : DmaSem sig := 41

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S128x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S5000x128 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S1x128 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S5000x128 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![10], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S128x128 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 2 → Memref sig .tc .vmem S5000x128 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev grid6 : Pipeline.Grid := ⟨1, ![10], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S5000x128 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S1x128 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 2 → Memref sig .tc .vmem S5000x128 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true]

abbrev grid7 : Pipeline.Grid := ⟨1, ![10], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_2 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_3 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S5000x128 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 1 → Memref sig .tc .vmem S128x64 .f32 := fun | 0 => Memref.whole cc7_stg1_0 | ⟨_ + 1, h⟩ => absurd h (Nat.not_lt.2 (Nat.le_add_left _ _))
abbrev sem7_1 : Fin 1 → DmaSem sig := fun | 0 => cc7_sem1_0 | ⟨_ + 1, h⟩ => absurd h (Nat.not_lt.2 (Nat.le_add_left _ _))
abbrev reads7_1 : Fin grid7.rank → Bool := ![false]

abbrev stage7_2 : Fin 1 → Memref sig .tc .vmem S1x64 .f32 := fun | 0 => Memref.whole cc7_stg2_0 | ⟨_ + 1, h⟩ => absurd h (Nat.not_lt.2 (Nat.le_add_left _ _))
abbrev sem7_2 : Fin 1 → DmaSem sig := fun | 0 => cc7_sem2_0 | ⟨_ + 1, h⟩ => absurd h (Nat.not_lt.2 (Nat.le_add_left _ _))
abbrev reads7_2 : Fin grid7.rank → Bool := ![false]

abbrev stage7_3 : Fin 2 → Memref sig .tc .vmem S5000x64 .f32 := fun | 0 => Memref.whole cc7_stg3_0 | 1 => Memref.whole cc7_stg3_1 | ⟨_ + 2, h⟩ => absurd h (Nat.not_lt.2 (Nat.le_add_left _ _))
abbrev sem7_3 : Fin 2 → DmaSem sig := fun | 0 => cc7_sem3_0 | 1 => cc7_sem3_1 | ⟨_ + 2, h⟩ => absurd h (Nat.not_lt.2 (Nat.le_add_left _ _))
abbrev reads7_3 : Fin grid7.rank → Bool := ![true]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  shapeCasts_S128_S1x128 : S128.ShapeCasts S1x128
  inb_S5000x256_S5000x256_0_0 : ∀ a, (![0, 0] : Fin 2 → Nat) a + S5000x256.size a ≤ S5000x256.size a
  h_S5000x256 : 0 < S5000x256.numel
  bitsLt_bf16_f32 : FTy.bits .bf16 < FTy.bits .f32
  inb_S256x128_S256x128_0_0 : ∀ a, (![0, 0] : Fin 2 → Nat) a + S256x128.size a ≤ S256x128.size a
  h_S256x128 : 0 < S256x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  inb_S128x128_S128x128_0_0 : ∀ a, (![0, 0] : Fin 2 → Nat) a + S128x128.size a ≤ S128x128.size a
  h_S128x128 : 0 < S128x128.numel
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  shapeCasts_S64_S1x64 : S64.ShapeCasts S1x64
  inb_S128x64_S128x64_0_0 : ∀ a, (![0, 0] : Fin 2 → Nat) a + S128x64.size a ≤ S128x64.size a
  h_S128x64 : 0 < S128x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  inb_S5000x64_S5000x64_0_0 : ∀ a, (![0, 0] : Fin 2 → Nat) a + S5000x64.size a ≤ S5000x64.size a
  h_S5000x64 : 0 < S5000x64.numel
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S5000x256_S256x128_S5000x128_1_0_0_1_n_n_wf : DotDims.WF S5000x256 S256x128 S5000x128 [1] [0] [0] [1] [] []
  dot_S5000x128_S128x128_S5000x128_1_0_0_1_n_n_wf : DotDims.WF S5000x128 S128x128 S5000x128 [1] [0] [0] [1] [] []
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  dot_S5000x128_S128x64_S5000x64_1_0_0_1_n_n_wf : DotDims.WF S5000x128 S128x64 S5000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x256.size a ≤ S50000x256.size a
  hwx0_0 : ∀ i : grid0.Coords, EltTy.bits .f32 = 32 ∨ (Rect.block (s := S50000x256) S5000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x128.size a ≤ S256x128.size a
  hwx0_1 : ∀ i : grid0.Coords, EltTy.bits .f32 = 32 ∨ (Rect.block (s := S256x128) S256x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x128.size a ≤ S50000x128.size a
  hwx0_3 : ∀ i : grid0.Coords, EltTy.bits .f32 = 32 ∨ (Rect.block (s := S50000x128) S5000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x128.size a ≤ S128x128.size a
  hwx1_1 : ∀ i : grid1.Coords, EltTy.bits .f32 = 32 ∨ (Rect.block (s := S128x128) S128x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x128.size a ≤ S50000x128.size a
  hwx1_2 : ∀ i : grid1.Coords, EltTy.bits .f32 = 32 ∨ (Rect.block (s := S50000x128) S5000x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x128.size a ≤ S1x128.size a
  hwx2_1 : ∀ i : grid2.Coords, EltTy.bits .f32 = 32 ∨ (Rect.block (s := S1x128) S1x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x128.size a ≤ S50000x128.size a
  hwx2_2 : ∀ i : grid2.Coords, EltTy.bits .f32 = 32 ∨ (Rect.block (s := S50000x128) S5000x128.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S50000x128.size a
  hwx3_0 : ∀ i : grid3.Coords, EltTy.bits .f32 = 32 ∨ (Rect.block (s := S50000x128) S5000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S128x128.size a ≤ S128x128.size a
  hwx3_1 : ∀ i : grid3.Coords, EltTy.bits .f32 = 32 ∨ (Rect.block (s := S128x128) S128x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x128.size a ≤ S50000x128.size a
  hwx3_2 : ∀ i : grid3.Coords, EltTy.bits .f32 = 32 ∨ (Rect.block (s := S50000x128) S5000x128.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x128.size a ≤ S50000x128.size a
  hwx4_0 : ∀ i : grid4.Coords, EltTy.bits .f32 = 32 ∨ (Rect.block (s := S50000x128) S5000x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S1x128.size a ≤ S1x128.size a
  hwx4_1 : ∀ i : grid4.Coords, EltTy.bits .f32 = 32 ∨ (Rect.block (s := S1x128) S1x128.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S5000x128.size a ≤ S50000x128.size a
  hwx4_2 : ∀ i : grid4.Coords, EltTy.bits .f32 = 32 ∨ (Rect.block (s := S50000x128) S5000x128.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x128.size a ≤ S50000x128.size a
  hwx5_0 : ∀ i : grid5.Coords, EltTy.bits .f32 = 32 ∨ (Rect.block (s := S50000x128) S5000x128.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S128x128.size a ≤ S128x128.size a
  hwx5_1 : ∀ i : grid5.Coords, EltTy.bits .f32 = 32 ∨ (Rect.block (s := S128x128) S128x128.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S5000x128.size a ≤ S50000x128.size a
  hwx5_2 : ∀ i : grid5.Coords, EltTy.bits .f32 = 32 ∨ (Rect.block (s := S50000x128) S5000x128.size (cc5_transform_2 i) (hinb5_2 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S5000x128.size a ≤ S50000x128.size a
  hwx6_0 : ∀ i : grid6.Coords, EltTy.bits .f32 = 32 ∨ (Rect.block (s := S50000x128) S5000x128.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S1x128.size a ≤ S1x128.size a
  hwx6_1 : ∀ i : grid6.Coords, EltTy.bits .f32 = 32 ∨ (Rect.block (s := S1x128) S1x128.size (cc6_transform_1 i) (hinb6_1 i)).WholeWords (EltTy.packing .f32)
  hstage6_2 : ∀ j, (stage6_2 j).IsWhole
  nbuf6_2 : grid6.bufCount reads6_2 false = 2
  hreads6_2 : ∀ i i' : grid6.Coords, (∀ a, reads6_2 a = true → i a = i' a) → cc6_transform_2 i = cc6_transform_2 i'
  hinb6_2 : ∀ (i : grid6.Coords) a, (cc6_transform_2 i a + 1) * S5000x128.size a ≤ S50000x128.size a
  hwx6_2 : ∀ i : grid6.Coords, EltTy.bits .f32 = 32 ∨ (Rect.block (s := S50000x128) S5000x128.size (cc6_transform_2 i) (hinb6_2 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S5000x128.size a ≤ S50000x128.size a
  hwx7_0 : ∀ i : grid7.Coords, EltTy.bits .f32 = 32 ∨ (Rect.block (s := S50000x128) S5000x128.size (cc7_transform_0 i) (hinb7_0 i)).WholeWords (EltTy.packing .f32)
  hstage7_1 : ∀ j, (stage7_1 j).IsWhole
  nbuf7_1 : grid7.bufCount reads7_1 true = 1
  hreads7_1 : ∀ i i' : grid7.Coords, (∀ a, reads7_1 a = true → i a = i' a) → cc7_transform_1 i = cc7_transform_1 i'
  hinb7_1 : ∀ (i : grid7.Coords) a, (cc7_transform_1 i a + 1) * S128x64.size a ≤ S128x64.size a
  hwx7_1 : ∀ i : grid7.Coords, EltTy.bits .f32 = 32 ∨ (Rect.block (s := S128x64) S128x64.size (cc7_transform_1 i) (hinb7_1 i)).WholeWords (EltTy.packing .f32)
  hstage7_2 : ∀ j, (stage7_2 j).IsWhole
  nbuf7_2 : grid7.bufCount reads7_2 true = 1
  hreads7_2 : ∀ i i' : grid7.Coords, (∀ a, reads7_2 a = true → i a = i' a) → cc7_transform_2 i = cc7_transform_2 i'
  hinb7_2 : ∀ (i : grid7.Coords) a, (cc7_transform_2 i a + 1) * S1x64.size a ≤ S1x64.size a
  hwx7_2 : ∀ i : grid7.Coords, EltTy.bits .f32 = 32 ∨ (Rect.block (s := S1x64) S1x64.size (cc7_transform_2 i) (hinb7_2 i)).WholeWords (EltTy.packing .f32)
  hstage7_3 : ∀ j, (stage7_3 j).IsWhole
  nbuf7_3 : grid7.bufCount reads7_3 false = 2
  hreads7_3 : ∀ i i' : grid7.Coords, (∀ a, reads7_3 a = true → i a = i' a) → cc7_transform_3 i = cc7_transform_3 i'
  hinb7_3 : ∀ (i : grid7.Coords) a, (cc7_transform_3 i a + 1) * S5000x64.size a ≤ S50000x64.size a
  hwx7_3 : ∀ i : grid7.Coords, EltTy.bits .f32 = 32 ∨ (Rect.block (s := S50000x64) S5000x64.size (cc7_transform_3 i) (hinb7_3 i)).WholeWords (EltTy.packing .f32)

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S5000x256_S256x128_S5000x128_1_0_0_1_n_n : DotDims S5000x256 S256x128 S5000x128 where
  lhsContracting := [1]
  rhsContracting := [0]
  lhsNonContracting := [0]
  rhsNonContracting := [1]
  lhsBatch := []
  rhsBatch := []
  wf := dot_S5000x256_S256x128_S5000x128_1_0_0_1_n_n_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf

abbrev win0_0 : Pipeline.Window sig grid0 :=
  Pipeline.Window.ofSpec (Memref.whole main_arg0) S5000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S256x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v30) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v31) S5000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v31) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg4) S128x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v32) S5000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v45) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v46) S1x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v47) S5000x128.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v47) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg6) S128x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v48) S5000x128.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v61) S5000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v62) S1x128.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v63) S5000x128.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v63) S5000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_arg8) S128x128.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v64) S5000x128.size cc5_transform_2 reads5_2 true false 2 stage5_2 sem5_2
    hrank5 hreads5_2 hinb5_2 nbuf5_2 (Memref.isWhole_whole _) hwx5_2 hstage5_2

abbrev win5 : Fin 3 → Pipeline.Window sig grid5 := fun | 0 => win5_0 | 1 => win5_1 | 2 => win5_2 | ⟨_ + 3, h⟩ => absurd h (Nat.not_lt.2 (Nat.le_add_left _ _))
abbrev spec5 : Fin 3 → Pipeline.WinSpec sig grid5.rank := fun w => (win5 w).toWinSpec

abbrev win6_0 : Pipeline.Window sig grid6 :=
  Pipeline.Window.ofSpec (Memref.whole main_v77) S5000x128.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v78) S1x128.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v79) S5000x128.size cc6_transform_2 reads6_2 true false 2 stage6_2 sem6_2
    hrank6 hreads6_2 hinb6_2 nbuf6_2 (Memref.isWhole_whole _) hwx6_2 hstage6_2

abbrev win6 : Fin 3 → Pipeline.Window sig grid6 := fun | 0 => win6_0 | 1 => win6_1 | 2 => win6_2 | ⟨_ + 3, h⟩ => absurd h (Nat.not_lt.2 (Nat.le_add_left _ _))
abbrev spec6 : Fin 3 → Pipeline.WinSpec sig grid6.rank := fun w => (win6 w).toWinSpec

abbrev win7_0 : Pipeline.Window sig grid7 :=
  Pipeline.Window.ofSpec (Memref.whole main_v79) S5000x128.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_arg10) S128x64.size cc7_transform_1 reads7_1 false true 1 stage7_1 sem7_1
    hrank7 hreads7_1 hinb7_1 nbuf7_1 (Memref.isWhole_whole _) hwx7_1 hstage7_1

abbrev win7_2 : Pipeline.Window sig grid7 :=
  Pipeline.Window.ofSpec (Memref.whole main_v80) S1x64.size cc7_transform_2 reads7_2 false true 1 stage7_2 sem7_2
    hrank7 hreads7_2 hinb7_2 nbuf7_2 (Memref.isWhole_whole _) hwx7_2 hstage7_2

abbrev win7_3 : Pipeline.Window sig grid7 :=
  Pipeline.Window.ofSpec (Memref.whole main_v81) S5000x64.size cc7_transform_3 reads7_3 true false 2 stage7_3 sem7_3
    hrank7 hreads7_3 hinb7_3 nbuf7_3 (Memref.isWhole_whole _) hwx7_3 hstage7_3

abbrev win7 : Fin 4 → Pipeline.Window sig grid7 := fun | 0 => win7_0 | 1 => win7_1 | 2 => win7_2 | 3 => win7_3 | ⟨_ + 4, h⟩ => absurd h (Nat.not_lt.2 (Nat.le_add_left _ _))
abbrev spec7 : Fin 4 → Pipeline.WinSpec sig grid7.rank := fun w => (win7 w).toWinSpec

class Facts : Prop extends Facts₀ where

variable [Facts]
-- ==== ReferenceIdeal.lean ====
abbrev S50000x256 : Shape := ⟨2, ![50000, 256]⟩
abbrev S2x800000 : Shape := ⟨2, ![2, 800000]⟩
abbrev S256x128 : Shape := ⟨2, ![256, 128]⟩
abbrev S128 : Shape := ⟨1, ![128]⟩
abbrev S128x128 : Shape := ⟨2, ![128, 128]⟩
abbrev S128x64 : Shape := ⟨2, ![128, 64]⟩
abbrev S64 : Shape := ⟨1, ![64]⟩
abbrev S50000 : Shape := ⟨1, ![50000]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S50000x128 : Shape := ⟨2, ![50000, 128]⟩
abbrev S1x128 : Shape := ⟨2, ![1, 128]⟩
abbrev S850000x128 : Shape := ⟨2, ![850000, 128]⟩
abbrev S50000x64 : Shape := ⟨2, ![50000, 64]⟩
abbrev S1x64 : Shape := ⟨2, ![1, 64]⟩

abbrev nBuf : Space → Nat
  | .hbm => 129
  | .vmem => 0
  | .smem => 0
  | _ => 0

abbrev hbmTy0_0 (i : Nat) : BufTy := match i % 128 with
  | 0 => ⟨S50000x256, .f32⟩
  | 1 => ⟨S2x800000, .i32⟩
  | 2 => ⟨S256x128, .f32⟩
  | 3 => ⟨S128, .f32⟩
  | 4 => ⟨S128x128, .f32⟩
  | 5 => ⟨S128, .f32⟩
  | 6 => ⟨S128x128, .f32⟩
  | 7 => ⟨S128, .f32⟩
  | 8 => ⟨S128x128, .f32⟩
  | 9 => ⟨S128, .f32⟩
  | 10 => ⟨S128x64, .f32⟩
  | 11 => ⟨S64, .f32⟩
  | 12 => ⟨S50000, .i32⟩
  | 13 => ⟨S1x800000, .i32⟩
  | 14 => ⟨S800000, .i32⟩
  | 15 => ⟨S850000, .i32⟩
  | 16 => ⟨S1x800000, .i32⟩
  | 17 => ⟨S800000, .i32⟩
  | 18 => ⟨S850000, .i32⟩
  | 19 => ⟨S_, .f32⟩
  | 20 => ⟨S850000, .f32⟩
  | 21 => ⟨S_, .f32⟩
  | 22 => ⟨S50000, .f32⟩
  | 23 => ⟨S850000x1, .i32⟩
  | 24 => ⟨S50000, .f32⟩
  | 25 => ⟨S_, .f32⟩
  | 26 => ⟨S50000, .f32⟩
  | 27 => ⟨S50000, .i1⟩
  | 28 => ⟨S50000, .f32⟩
  | 29 => ⟨S_, .f32⟩
  | 30 => ⟨S_, .f32⟩
  | 31 => ⟨S50000, .f32⟩
  | 32 => ⟨S50000, .f32⟩
  | 33 => ⟨S_, .i32⟩
  | 34 => ⟨S850000, .i32⟩
  | 35 => ⟨S850000, .i1⟩
  | 36 => ⟨S_, .i32⟩
  | 37 => ⟨S850000, .i32⟩
  | 38 => ⟨S850000, .i32⟩
  | 39 => ⟨S850000, .i32⟩
  | 40 => ⟨S850000x1, .i32⟩
  | 41 => ⟨S850000, .f32⟩
  | 42 => ⟨S_, .i32⟩
  | 43 => ⟨S850000, .i32⟩
  | 44 => ⟨S850000, .i1⟩
  | 45 => ⟨S_, .i32⟩
  | 46 => ⟨S850000, .i32⟩
  | 47 => ⟨S850000, .i32⟩
  | 48 => ⟨S850000, .i32⟩
  | 49 => ⟨S850000x1, .i32⟩
  | 50 => ⟨S850000, .f32⟩
  | 51 => ⟨S850000, .f32⟩
  | 52 => ⟨S50000x128, .f32⟩
  | 53 => ⟨S1x128, .f32⟩
  | 54 => ⟨S50000x128, .f32⟩
  | 55 => ⟨S50000x128, .f32⟩
  | 56 => ⟨S50000x128, .f32⟩
  | 57 => ⟨S_, .i32⟩
  | 58 => ⟨S850000, .i32⟩
  | 59 => ⟨S850000, .i1⟩
  | 60 => ⟨S_, .i32⟩
  | 61 => ⟨S850000, .i32⟩
  | 62 => ⟨S850000, .i32⟩
  | 63 => ⟨S850000, .i32⟩
  | 64 => ⟨S850000x1, .i32⟩
  | 65 => ⟨S850000x128, .f32⟩
  | 66 => ⟨S850000x1, .f32⟩
  | 67 => ⟨S850000x128, .f32⟩
  | 68 => ⟨S850000x128, .f32⟩
  | 69 => ⟨S_, .f32⟩
  | 70 => ⟨S50000x128, .f32⟩
  | 71 => ⟨S850000x1, .i32⟩
  | 72 => ⟨S50000x128, .f32⟩
  | 73 => ⟨S1x128, .f32⟩
  | 74 => ⟨S50000x128, .f32⟩
  | 75 => ⟨S50000x128, .f32⟩
  | 76 => ⟨S_, .f32⟩
  | 77 => ⟨S50000x128, .f32⟩
  | 78 => ⟨S50000x128, .f32⟩
  | 79 => ⟨S50000x128, .f32⟩
  | 80 => ⟨S_, .i32⟩
  | 81 => ⟨S850000, .i32⟩
  | 82 => ⟨S850000, .i1⟩
  | 83 => ⟨S_, .i32⟩
  | 84 => ⟨S850000, .i32⟩
  | 85 => ⟨S850000, .i32⟩
  | 86 => ⟨S850000, .i32⟩
  | 87 => ⟨S850000x1, .i32⟩
  | 88 => ⟨S850000x128, .f32⟩
  | 89 => ⟨S850000x1, .f32⟩
  | 90 => ⟨S850000x128, .f32⟩
  | 91 => ⟨S850000x128, .f32⟩
  | 92 => ⟨S_, .f32⟩
  | 93 => ⟨S50000x128, .f32⟩
  | 94 => ⟨S850000x1, .i32⟩
  | 95 => ⟨S50000x128, .f32⟩
  | 96 => ⟨S1x128, .f32⟩
  | 97 => ⟨S50000x128, .f32⟩
  | 98 => ⟨S50000x128, .f32⟩
  | 99 => ⟨S_, .f32⟩
  | 100 => ⟨S50000x128, .f32⟩
  | 101 => ⟨S50000x128, .f32⟩
  | 102 => ⟨S50000x128, .f32⟩
  | 103 => ⟨S_, .i32⟩
  | 104 => ⟨S850000, .i32⟩
  | 105 => ⟨S850000, .i1⟩
  | 106 => ⟨S_, .i32⟩
  | 107 => ⟨S850000, .i32⟩
  | 108 => ⟨S850000, .i32⟩
  | 109 => ⟨S850000, .i32⟩
  | 110 => ⟨S850000x1, .i32⟩
  | 111 => ⟨S850000x128, .f32⟩
  | 112 => ⟨S850000x1, .f32⟩
  | 113 => ⟨S850000x128, .f32⟩
  | 114 => ⟨S850000x128, .f32⟩
  | 115 => ⟨S_, .f32⟩
  | 116 => ⟨S50000x128, .f32⟩
  | 117 => ⟨S850000x1, .i32⟩
  | 118 => ⟨S50000x128, .f32⟩
  | 119 => ⟨S1x128, .f32⟩
  | 120 => ⟨S50000x128, .f32⟩
  | 121 => ⟨S50000x128, .f32⟩
  | 122 => ⟨S_, .f32⟩
  | 123 => ⟨S50000x128, .f32⟩
  | 124 => ⟨S50000x128, .f32⟩
  | 125 => ⟨S50000x64, .f32⟩
  | 126 => ⟨S1x64, .f32⟩
  | 127 => ⟨S50000x64, .f32⟩
  | _ => ⟨S50000x256, .f32⟩

abbrev hbmTy0_1 (i : Nat) : BufTy := match i % 128 with
  | 0 => ⟨S50000x64, .f32⟩
  | _ => ⟨S50000x256, .f32⟩

abbrev hbmTy (i : Nat) : BufTy := match i / 128 with
  | 0 => hbmTy0_0 i
  | 1 => hbmTy0_1 i
  | _ => ⟨S50000x256, .f32⟩

abbrev bufTy : (tb : Table) → Fin (tcTables nBuf tb) → BufTy
  | .hbm, ⟨i, _⟩ => hbmTy i
  | _, _ => ⟨S50000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_cst : Ref sig .tc := ⟨.hbm, 19, rfl⟩
abbrev main_v7 : Ref sig .tc := ⟨.hbm, 20, rfl⟩
abbrev main_cst_0 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_cst_1 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_cst_2 : Ref sig .tc := ⟨.hbm, 29, rfl⟩
abbrev main_call0_v0 : Ref sig .tc := ⟨.hbm, 30, rfl⟩
abbrev main_call0_v1 : Ref sig .tc := ⟨.hbm, 31, rfl⟩
abbrev main_v14 : Ref sig .tc := ⟨.hbm, 32, rfl⟩
abbrev main_c : Ref sig .tc := ⟨.hbm, 33, rfl⟩
abbrev main_v15 : Ref sig .tc := ⟨.hbm, 34, rfl⟩
abbrev main_v16 : Ref sig .tc := ⟨.hbm, 35, rfl⟩
abbrev main_c_3 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_c_4 : Ref sig .tc := ⟨.hbm, 42, rfl⟩
abbrev main_v22 : Ref sig .tc := ⟨.hbm, 43, rfl⟩
abbrev main_v23 : Ref sig .tc := ⟨.hbm, 44, rfl⟩
abbrev main_c_5 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_c_6 : Ref sig .tc := ⟨.hbm, 57, rfl⟩
abbrev main_v35 : Ref sig .tc := ⟨.hbm, 58, rfl⟩
abbrev main_v36 : Ref sig .tc := ⟨.hbm, 59, rfl⟩
abbrev main_c_7 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_cst_8 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_call1_cst : Ref sig .tc := ⟨.hbm, 76, rfl⟩
abbrev main_call1_v0 : Ref sig .tc := ⟨.hbm, 77, rfl⟩
abbrev main_v51 : Ref sig .tc := ⟨.hbm, 78, rfl⟩
abbrev main_v52 : Ref sig .tc := ⟨.hbm, 79, rfl⟩
abbrev main_c_9 : Ref sig .tc := ⟨.hbm, 80, rfl⟩
abbrev main_v53 : Ref sig .tc := ⟨.hbm, 81, rfl⟩
abbrev main_v54 : Ref sig .tc := ⟨.hbm, 82, rfl⟩
abbrev main_c_10 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_cst_11 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_call2_cst : Ref sig .tc := ⟨.hbm, 99, rfl⟩
abbrev main_call2_v0 : Ref sig .tc := ⟨.hbm, 100, rfl⟩
abbrev main_v69 : Ref sig .tc := ⟨.hbm, 101, rfl⟩
abbrev main_v70 : Ref sig .tc := ⟨.hbm, 102, rfl⟩
abbrev main_c_12 : Ref sig .tc := ⟨.hbm, 103, rfl⟩
abbrev main_v71 : Ref sig .tc := ⟨.hbm, 104, rfl⟩
abbrev main_v72 : Ref sig .tc := ⟨.hbm, 105, rfl⟩
abbrev main_c_13 : Ref sig .tc := ⟨.hbm, 106, rfl⟩
abbrev main_v73 : Ref sig .tc := ⟨.hbm, 107, rfl⟩
abbrev main_v74 : Ref sig .tc := ⟨.hbm, 108, rfl⟩
abbrev main_v75 : Ref sig .tc := ⟨.hbm, 109, rfl⟩
abbrev main_v76 : Ref sig .tc := ⟨.hbm, 110, rfl⟩
abbrev main_v77 : Ref sig .tc := ⟨.hbm, 111, rfl⟩
abbrev main_v78 : Ref sig .tc := ⟨.hbm, 112, rfl⟩
abbrev main_v79 : Ref sig .tc := ⟨.hbm, 113, rfl⟩
abbrev main_v80 : Ref sig .tc := ⟨.hbm, 114, rfl⟩
abbrev main_cst_14 : Ref sig .tc := ⟨.hbm, 115, rfl⟩
abbrev main_v81 : Ref sig .tc := ⟨.hbm, 116, rfl⟩
abbrev main_v82 : Ref sig .tc := ⟨.hbm, 117, rfl⟩
abbrev main_v83 : Ref sig .tc := ⟨.hbm, 118, rfl⟩
abbrev main_v84 : Ref sig .tc := ⟨.hbm, 119, rfl⟩
abbrev main_v85 : Ref sig .tc := ⟨.hbm, 120, rfl⟩
abbrev main_v86 : Ref sig .tc := ⟨.hbm, 121, rfl⟩
abbrev main_call3_cst : Ref sig .tc := ⟨.hbm, 122, rfl⟩
abbrev main_call3_v0 : Ref sig .tc := ⟨.hbm, 123, rfl⟩
abbrev main_v87 : Ref sig .tc := ⟨.hbm, 124, rfl⟩
abbrev main_v88 : Ref sig .tc := ⟨.hbm, 125, rfl⟩
abbrev main_v89 : Ref sig .tc := ⟨.hbm, 126, rfl⟩
abbrev main_v90 : Ref sig .tc := ⟨.hbm, 127, rfl⟩
abbrev main_v91 : Ref sig .tc := ⟨.hbm, 128, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S50000x256_S256x128_S50000x128_1_0_0_1_n_n_wf : DotDims.WF S50000x256 S256x128 S50000x128 [1] [0] [0] [1] [] []
  dot_S50000x128_S128x128_S50000x128_1_0_0_1_n_n_wf : DotDims.WF S50000x128 S128x128 S50000x128 [1] [0] [0] [1] [] []
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  dot_S50000x128_S128x64_S50000x64_1_0_0_1_n_n_wf : DotDims.WF S50000x128 S128x64 S50000x64 [1] [0] [0] [1] [] []

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S50000x256_S256x128_S50000x128_1_0_0_1_n_n : DotDims S50000x256 S256x128 S50000x128 where
  lhsContracting := [1]
  rhsContracting := [0]
  lhsNonContracting := [0]
  rhsNonContracting := [1]
  lhsBatch := []
  rhsBatch := []
  wf := dot_S50000x256_S256x128_S50000x128_1_0_0_1_n_n_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf
def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf

class Facts : Prop extends Facts₀ where

variable [Facts]
-- ==== Proof.Stage.lean ====
/-
  The reference network, written as a composition of named stages over whole arrays.

  The graph has 50000 nodes and 800000 edges; every node also gets a self-loop, so the edge lists have
  850000 entries: `src` and `dst` are rows 0 and 1 of the edge array followed by 0 … 49999. An index below
  zero counts from the end (`wrap`). With deg(v) the number of entries of `dst` equal to v, the edge weight is
  norm(k) = dis(src k) · dis(dst k), where dis(v) = deg(v)^(-1/2) when deg(v) > 0 and 0 otherwise.
  One aggregation sends z to  agg z (v, j) = Σ_{k : dst k = v} z(src k, j) · norm(k).
  The network is  out = lin64 (L (L (L (lin128 x)))),  L h = max(agg (h · W) + b, 0),  lin x = x · W + b.
  A bias enters each dense stage as a one-row array [1, n] spread over the rows; `row128` / `row64` is the row
  made from the bias vector.
-/
import proofs.«173057_j730144440424_1_alg».proof.Proof.Gen.ReferenceIdeal

noncomputable section

namespace Cert.ReferenceIdeal.Stage

open Cert.ReferenceIdeal Cert.ReferenceIdeal.Gen Idealize.ShloMosaic Idealize.ShloMosaic.TcCoe

variable {F : FTy → Type} [FloatOps F]

/-- Edge sources, then one self-loop per node. -/
abbrev src (e : IVec S2x800000 32) : IVec S850000 32 :=
  concatenate S850000 0 [⟨S800000, (shapeCast _ (extractStridedSlice S1x800000 ![0, 0] e slices_S2x800000_S1x800000_0_0) shapeCasts_S1x800000_S800000)⟩, ⟨S50000, (iotaInDim S50000 32 0)⟩] concatenates_S800000_S50000_S850000_d0

/-- Edge destinations, then one self-loop per node. -/
abbrev dst (e : IVec S2x800000 32) : IVec S850000 32 :=
  concatenate S850000 0 [⟨S800000, (shapeCast _ (extractStridedSlice S1x800000 ![1, 0] e slices_S2x800000_S1x800000_1_0) shapeCasts_S1x800000_S800000)⟩, ⟨S50000, (iotaInDim S50000 32 0)⟩] concatenates_S800000_S50000_S850000_d0

/-- A negative node index counts from the end: the node count is added to it. -/
abbrev wrap (s : IVec S850000 32) : IVec S850000 32 :=
  select (cmpi .slt s (broadcastInDim S850000 ![] bcast_S_S850000 (constantI S_ 32 0#32))) (addi s (broadcastInDim S850000 ![] bcast_S_S850000 (constantI S_ 32 50000#32))) s

/-- deg(v): how many entries of `dst` are v (a sum of ones scattered by destination). -/
abbrev deg (e : IVec S2x800000 32) : FVec F S50000 .f32 :=
  Host.scatterAdd scatter_S50000_S850000x1_S850000_n_0_0_1 (broadcastInDim S50000 ![] bcast_S_S50000 (constant S_ .f32 0x00000000#32)) (broadcastInDim S850000x1 ![0] bcast_S850000_S850000x1_0 (dst e)) (broadcastInDim S850000 ![] bcast_S_S850000 (constant S_ .f32 0x3F800000#32))

/-- dis(v) = deg(v)^(-1/2) where deg(v) > 0, else 0. -/
abbrev dis (e : IVec S2x800000 32) : FVec F S50000 .f32 :=
  select (cmpf .ogt (deg (F := F) e) (broadcastInDim S50000 ![] bcast_S_S50000 (constant S_ .f32 0x00000000#32))) (Host.rsqrt (deg (F := F) e)) (broadcastInDim S50000 ![] bcast_S_S50000 (id (constant S_ .f32 0x00000000#32)))

/-- norm(k) = dis(src k) · dis(dst k). -/
abbrev norm (e : IVec S2x800000 32) : FVec F S850000 .f32 :=
  mulf (Host.gather gather_S50000_S850000x1_S850000_n_0_n_n_0_1_1 (dis (F := F) e) (broadcastInDim S850000x1 ![0] bcast_S850000_S850000x1_0 (wrap (src e)))) (Host.gather gather_S50000_S850000x1_S850000_n_0_n_n_0_1_1 (dis (F := F) e) (broadcastInDim S850000x1 ![0] bcast_S850000_S850000x1_0 (wrap (dst e))))

/-- One aggregation: agg z (v, j) = Σ_{k : dst k = v} z(src k, j) · norm(k). -/
abbrev agg (e : IVec S2x800000 32) (z : FVec F S50000x128 .f32) : FVec F S50000x128 .f32 :=
  Host.scatterAdd scatter_S50000x128_S850000x1_S850000x128_1_0_0_1 (broadcastInDim S50000x128 ![] bcast_S_S50000x128 (constant S_ .f32 0x00000000#32)) (broadcastInDim S850000x1 ![0] bcast_S850000_S850000x1_0 (dst e)) (mulf (Host.gather gather_S50000x128_S850000x1_S850000x128_1_0_n_n_0_1_1128 z (broadcastInDim S850000x1 ![0] bcast_S850000_S850000x1_0 (wrap (src e)))) (broadcastInDim S850000x128 ![0, 1] bcast_S850000x1_S850000x128_0_1 (broadcastInDim S850000x1 ![0] bcast_S850000_S850000x1_0 (norm (F := F) e))))

/-- A bias vector of 128 entries as a one-row array. -/
abbrev row128 (b : FVec F S128 .f32) : FVec F S1x128 .f32 := broadcastInDim S1x128 ![1] bcast_S128_S1x128_1 b

/-- A bias vector of 64 entries as a one-row array. -/
abbrev row64 (b : FVec F S64 .f32) : FVec F S1x64 .f32 := broadcastInDim S1x64 ![1] bcast_S64_S1x64_1 b

/-- x · W + r, the row r spread over the 50000 rows (256 → 128 features). -/
abbrev linrow128 (x : FVec F S50000x256 .f32) (W : FVec F S256x128 .f32) (r : FVec F S1x128 .f32) : FVec F S50000x128 .f32 :=
  addf (Host.dotGeneral dot_S50000x256_S256x128_S50000x128_1_0_0_1_n_n none x W) (broadcastInDim S50000x128 ![0, 1] bcast_S1x128_S50000x128_0_1 r)

/-- h · W (128 → 128 features). -/
abbrev mm (h : FVec F S50000x128 .f32) (W : FVec F S128x128 .f32) : FVec F S50000x128 .f32 :=
  Host.dotGeneral dot_S50000x128_S128x128_S50000x128_1_0_0_1_n_n none h W

/-- max(a + r, 0), the row r spread over the 50000 rows. -/
abbrev brelurow (a : FVec F S50000x128 .f32) (r : FVec F S1x128 .f32) : FVec F S50000x128 .f32 :=
  maximumf (addf a (broadcastInDim S50000x128 ![0, 1] bcast_S1x128_S50000x128_0_1 r)) (broadcastInDim S50000x128 ![] bcast_S_S50000x128 (constant S_ .f32 0x00000000#32))

/-- h · W + r, the row r spread over the 50000 rows (128 → 64 features). -/
abbrev linrow64 (h : FVec F S50000x128 .f32) (W : FVec F S128x64 .f32) (r : FVec F S1x64 .f32) : FVec F S50000x64 .f32 :=
  addf (Host.dotGeneral dot_S50000x128_S128x64_S50000x64_1_0_0_1_n_n none h W) (broadcastInDim S50000x64 ![0, 1] bcast_S1x64_S50000x64_0_1 r)

/-- The whole network: projection, three aggregation layers, output layer. -/
abbrev model (x : FVec F S50000x256 .f32) (e : IVec S2x800000 32) (Wp : FVec F S256x128 .f32) (bp : FVec F S128 .f32)
    (W0 : FVec F S128x128 .f32) (b0 : FVec F S128 .f32) (W1 : FVec F S128x128 .f32) (b1 : FVec F S128 .f32)
    (W2 : FVec F S128x128 .f32) (b2 : FVec F S128 .f32) (Wo : FVec F S128x64 .f32) (bo : FVec F S64 .f32) : FVec F S50000x64 .f32 :=
  linrow64 (brelurow (agg e (mm (brelurow (agg e (mm (brelurow (agg e (mm (linrow128 x Wp (row128 bp)) W0)) (row128 b0)) W1)) (row128 b1)) W2)) (row128 b2)) Wo (row64 bo)

end Cert.ReferenceIdeal.Stage

end
-- ==== Proof.Env.lean ====
/-
  What the host stretches of the kernel's program leave in the buffers the regions and later stretches read.

  The program's buffers at each boundary between segments are a fold from the launch memory: a host stretch
  applies its operations in order, a region replaces its own arrays by what its write-backs leave and touches
  nothing else. So a buffer that no later stretch writes and no later region stages keeps its contents, and
  walking such a buffer back boundary by boundary ends at the operation that wrote it.

  Before the first region the program builds, from the edge array alone, the source list `src`, the destination
  list `dst` (each followed by a self-loop per node) and the edge weights `norm`; they are never written again,
  and each aggregation stretch reads them as they were. An aggregation stretch gathers the rows z(src k, ·),
  scales row k by norm(k) and adds it into row dst k of a zero array: the stage `agg` of the array z the
  preceding region left. A bias vector reaches a region as a one-row array: the reshape [n] → [1, n] of the
  vector, which is the same array as the vector spread along a new leading axis.
-/
import proofs.«173057_j730144440424_1_alg».proof.Proof.Keep
import proofs.«173057_j730144440424_1_alg».proof.Proof.Stage
import Idealize.ShloMosaic.Lib.StableHlo.Run
import Idealize.ShloMosaic.Lib.Pipeline.Value
import Idealize.ShloMosaic.Lib.ValueIdx

set_option maxRecDepth 16384

noncomputable section

open Idealize.ShloMosaic Idealize.ShloMosaic.TcCoe Idealize.SL.Sem

namespace Cert.KernelIdeal.Hand

open Cert.KernelIdeal Cert.KernelIdeal.Gen

variable {F : FTy → Type} [FloatOps F]
variable (m : (ℓ : Loc nD τ sig) → Buf (Elt F) ℓ) (ρ : Dev nD → PrngReg) (c : Dev nD)

/-- Closes `StableHlo.after ops V b = V b` for a literal stretch `ops` none of whose operations writes `b`. -/
local macro "keeps " ops:ident : tactic =>
  `(tactic| exact StableHlo.after_of_forall_not_mem _ _ (List.forall_iff_forall_mem.mp (by
      simp only [$ops:ident, List.flatten_cons, List.flatten_nil, List.append_nil, List.cons_append, List.nil_append, List.Forall,
        StableHlo.nullary_writes, StableHlo.unary_writes, StableHlo.binary_writes, StableHlo.ternary_writes,
        StableHlo.quaternary_writes, StableHlo.reshape_writes, StableHlo.binaryIndexed_writes, Finset.mem_singleton]
      repeat' apply And.intro
      all_goals exact StableHlo.devRef_ne_of_ne (by decide))))

/-! ## A bias vector as a one-row array -/

/-- The reshape [128] → [1, 128] of a vector is the vector spread along a new leading axis: entry (0, j) is b j. -/
theorem row128_of_reshape {α : Type} (b : S128.Idx → α) :
    shapeCast S1x128 b shapeCasts_S128_S1x128 = broadcastInDim Cert.ReferenceIdeal.S1x128 ![1] Cert.ReferenceIdeal.Facts₀.bcast_S128_S1x128_1 b := by
  funext i
  have h0 : (i 0).val < 1 := (i 0).isLt
  let j : S128.Idx := fun a => match a with
    | ⟨0, _⟩ => ⟨(i 1).val, (i 1).isLt⟩
  refine (shapeCast_apply b shapeCasts_S128_S1x128 i j ?_).trans (broadcastInDim_apply _ Cert.ReferenceIdeal.Facts₀.bcast_S128_S1x128_1 b i j (fun a => ?_)).symm
  · rewrite [Shape.rowMajor_val_one, Shape.rowMajor_val_two]
    show (i 1).val = (i 0).val * 128 + (i 1).val
    omega
  · match a with
    | ⟨0, _⟩ => show (i 1).val = if (128 : Nat) = 1 then 0 else (i 1).val; rw [if_neg (by decide)]

/-- The reshape [64] → [1, 64] of a vector is the vector spread along a new leading axis: entry (0, j) is b j. -/
theorem row64_of_reshape {α : Type} (b : S64.Idx → α) :
    shapeCast S1x64 b shapeCasts_S64_S1x64 = broadcastInDim Cert.ReferenceIdeal.S1x64 ![1] Cert.ReferenceIdeal.Facts₀.bcast_S64_S1x64_1 b := by
  funext i
  have h0 : (i 0).val < 1 := (i 0).isLt
  let j : S64.Idx := fun a => match a with
    | ⟨0, _⟩ => ⟨(i 1).val, (i 1).isLt⟩
  refine (shapeCast_apply b shapeCasts_S64_S1x64 i j ?_).trans (broadcastInDim_apply _ Cert.ReferenceIdeal.Facts₀.bcast_S64_S1x64_1 b i j (fun a => ?_)).symm
  · rewrite [Shape.rowMajor_val_one, Shape.rowMajor_val_two]
    show (i 1).val = (i 0).val * 64 + (i 1).val
    omega
  · match a with
    | ⟨0, _⟩ => show (i 1).val = if (64 : Nat) = 1 then 0 else (i 1).val; rw [if_neg (by decide)]

/-! ## Boundary 3: what region 0 finds -/

/-- The source list: row 0 of the edge array, then a self-loop per node. -/
theorem at3_src : W3 m ρ c (Proc.devRef .tc main_v3) = Cert.ReferenceIdeal.Stage.src (m ((c : Thread nD τ).loc main_arg1)) := by
  show StableHlo.after hostOps0_2 (StableHlo.after hostOps0_1 (StableHlo.after hostOps0 (W0 m ρ c))) (Proc.devRef .tc main_v3) = _
  simp only [hostOps0_2, hostOps0_1, hostOps0]
  after_results
  rfl

/-- The destination list: row 1 of the edge array, then a self-loop per node. -/
theorem at3_dst : W3 m ρ c (Proc.devRef .tc main_v6) = Cert.ReferenceIdeal.Stage.dst (m ((c : Thread nD τ).loc main_arg1)) := by
  show StableHlo.after hostOps0_2 (StableHlo.after hostOps0_1 (StableHlo.after hostOps0 (W0 m ρ c))) (Proc.devRef .tc main_v6) = _
  simp only [hostOps0_2, hostOps0_1, hostOps0]
  after_results
  rfl

/-- The edge weights dis(src k) · dis(dst k), dis the inverse square root of the in-degree where that is positive. -/
theorem at3_norm : W3 m ρ c (Proc.devRef .tc main_v29) = Cert.ReferenceIdeal.Stage.norm (F := F) (m ((c : Thread nD τ).loc main_arg1)) := by
  show StableHlo.after hostOps0_2 (StableHlo.after hostOps0_1 (StableHlo.after hostOps0 (W0 m ρ c))) (Proc.devRef .tc main_v29) = _
  simp only [hostOps0_2, hostOps0_1, hostOps0]
  after_results_simp
  rfl

/-- The projection's bias as a one-row array. -/
theorem at3_v30 : W3 m ρ c (Proc.devRef .tc main_v30) = Cert.ReferenceIdeal.Stage.row128 (m ((c : Thread nD τ).loc main_arg3)) := by
  show StableHlo.after hostOps0_2 (StableHlo.after hostOps0_1 (StableHlo.after hostOps0 (W0 m ρ c))) (Proc.devRef .tc main_v30) = _
  simp only [hostOps0_2, hostOps0_1, hostOps0]
  after_results
  exact row128_of_reshape _

/-! ## The edge lists and weights at the start of each aggregation (boundaries 5, 8, 11)

Neither a region nor an aggregation stretch writes them. -/

theorem at5_src : W5 m ρ c (Proc.devRef .tc main_v3) = Cert.ReferenceIdeal.Stage.src (m ((c : Thread nD τ).loc main_arg1)) :=
  (to5 m ρ c main_v3 (by decide) (by decide)).trans (at3_src m ρ c)
theorem at5_dst : W5 m ρ c (Proc.devRef .tc main_v6) = Cert.ReferenceIdeal.Stage.dst (m ((c : Thread nD τ).loc main_arg1)) :=
  (to5 m ρ c main_v6 (by decide) (by decide)).trans (at3_dst m ρ c)
theorem at5_norm : W5 m ρ c (Proc.devRef .tc main_v29) = Cert.ReferenceIdeal.Stage.norm (F := F) (m ((c : Thread nD τ).loc main_arg1)) :=
  (to5 m ρ c main_v29 (by decide) (by decide)).trans (at3_norm m ρ c)

theorem at8_src : W8 m ρ c (Proc.devRef .tc main_v3) = Cert.ReferenceIdeal.Stage.src (m ((c : Thread nD τ).loc main_arg1)) :=
  (W8_of_ne m ρ c main_v3 (by decide)).trans ((W7_of_ne m ρ c main_v3 (by decide)).trans
    ((by keeps hostOps2 : W6 m ρ c (Proc.devRef .tc main_v3) = W5 m ρ c (Proc.devRef .tc main_v3)).trans (at5_src m ρ c)))
theorem at8_dst : W8 m ρ c (Proc.devRef .tc main_v6) = Cert.ReferenceIdeal.Stage.dst (m ((c : Thread nD τ).loc main_arg1)) :=
  (W8_of_ne m ρ c main_v6 (by decide)).trans ((W7_of_ne m ρ c main_v6 (by decide)).trans
    ((by keeps hostOps2 : W6 m ρ c (Proc.devRef .tc main_v6) = W5 m ρ c (Proc.devRef .tc main_v6)).trans (at5_dst m ρ c)))
theorem at8_norm : W8 m ρ c (Proc.devRef .tc main_v29) = Cert.ReferenceIdeal.Stage.norm (F := F) (m ((c : Thread nD τ).loc main_arg1)) :=
  (W8_of_ne m ρ c main_v29 (by decide)).trans ((W7_of_ne m ρ c main_v29 (by decide)).trans
    ((by keeps hostOps2 : W6 m ρ c (Proc.devRef .tc main_v29) = W5 m ρ c (Proc.devRef .tc main_v29)).trans (at5_norm m ρ c)))

theorem at11_src : W11 m ρ c (Proc.devRef .tc main_v3) = Cert.ReferenceIdeal.Stage.src (m ((c : Thread nD τ).loc main_arg1)) :=
  (W11_of_ne m ρ c main_v3 (by decide)).trans ((W10_of_ne m ρ c main_v3 (by decide)).trans
    ((by keeps hostOps4 : W9 m ρ c (Proc.devRef .tc main_v3) = W8 m ρ c (Proc.devRef .tc main_v3)).trans (at8_src m ρ c)))
theorem at11_dst : W11 m ρ c (Proc.devRef .tc main_v6) = Cert.ReferenceIdeal.Stage.dst (m ((c : Thread nD τ).loc main_arg1)) :=
  (W11_of_ne m ρ c main_v6 (by decide)).trans ((W10_of_ne m ρ c main_v6 (by decide)).trans
    ((by keeps hostOps4 : W9 m ρ c (Proc.devRef .tc main_v6) = W8 m ρ c (Proc.devRef .tc main_v6)).trans (at8_dst m ρ c)))
theorem at11_norm : W11 m ρ c (Proc.devRef .tc main_v29) = Cert.ReferenceIdeal.Stage.norm (F := F) (m ((c : Thread nD τ).loc main_arg1)) :=
  (W11_of_ne m ρ c main_v29 (by decide)).trans ((W10_of_ne m ρ c main_v29 (by decide)).trans
    ((by keeps hostOps4 : W9 m ρ c (Proc.devRef .tc main_v29) = W8 m ρ c (Proc.devRef .tc main_v29)).trans (at8_norm m ρ c)))

/-! ## The three aggregation stretches and the bias rows they make -/

/-- The first aggregation: of the array the first feature transform left. -/
theorem at6_v45 : W6 m ρ c (Proc.devRef .tc main_v45)
    = Cert.ReferenceIdeal.Stage.agg (F := F) (m ((c : Thread nD τ).loc main_arg1)) (W5 m ρ c (Proc.devRef .tc main_v32)) := by
  show StableHlo.after hostOps2 (W5 m ρ c) (Proc.devRef .tc main_v45) = _
  have hs := at5_src m ρ c
  have hd := at5_dst m ρ c
  have hn := at5_norm m ρ c
  generalize W5 m ρ c = X at hs hd hn ⊢
  simp only [hostOps2]
  after_results_simp
  rw [hs, hd, hn]
  rfl

/-- The first layer's bias as a one-row array. -/
theorem at6_v46 : W6 m ρ c (Proc.devRef .tc main_v46) = Cert.ReferenceIdeal.Stage.row128 (m ((c : Thread nD τ).loc main_arg5)) := by
  show StableHlo.after hostOps2 (W5 m ρ c) (Proc.devRef .tc main_v46) = _
  simp only [hostOps2]
  after_results
  rw [at5_arg5 m ρ c]
  exact row128_of_reshape _

/-- The second aggregation: of the array the second feature transform left. -/
theorem at9_v61 : W9 m ρ c (Proc.devRef .tc main_v61)
    = Cert.ReferenceIdeal.Stage.agg (F := F) (m ((c : Thread nD τ).loc main_arg1)) (W8 m ρ c (Proc.devRef .tc main_v48)) := by
  show StableHlo.after hostOps4 (W8 m ρ c) (Proc.devRef .tc main_v61) = _
  have hs := at8_src m ρ c
  have hd := at8_dst m ρ c
  have hn := at8_norm m ρ c
  generalize W8 m ρ c = X at hs hd hn ⊢
  simp only [hostOps4]
  after_results_simp
  rw [hs, hd, hn]
  rfl

/-- The second layer's bias as a one-row array. -/
theorem at9_v62 : W9 m ρ c (Proc.devRef .tc main_v62) = Cert.ReferenceIdeal.Stage.row128 (m ((c : Thread nD τ).loc main_arg7)) := by
  show StableHlo.after hostOps4 (W8 m ρ c) (Proc.devRef .tc main_v62) = _
  simp only [hostOps4]
  after_results
  rw [at8_arg7 m ρ c]
  exact row128_of_reshape _

/-- The third aggregation: of the array the third feature transform left. -/
theorem at12_v77 : W12 m ρ c (Proc.devRef .tc main_v77)
    = Cert.ReferenceIdeal.Stage.agg (F := F) (m ((c : Thread nD τ).loc main_arg1)) (W11 m ρ c (Proc.devRef .tc main_v64)) := by
  show StableHlo.after hostOps6 (W11 m ρ c) (Proc.devRef .tc main_v77) = _
  have hs := at11_src m ρ c
  have hd := at11_dst m ρ c
  have hn := at11_norm m ρ c
  generalize W11 m ρ c = X at hs hd hn ⊢
  simp only [hostOps6]
  after_results_simp
  rw [hs, hd, hn]
  rfl

/-- The third layer's bias as a one-row array. -/
theorem at12_v78 : W12 m ρ c (Proc.devRef .tc main_v78) = Cert.ReferenceIdeal.Stage.row128 (m ((c : Thread nD τ).loc main_arg9)) := by
  show StableHlo.after hostOps6 (W11 m ρ c) (Proc.devRef .tc main_v78) = _
  simp only [hostOps6]
  after_results
  rw [at11_arg9 m ρ c]
  exact row128_of_reshape _

/-- The output layer's bias as a one-row array. -/
theorem at14_v80 : W14 m ρ c (Proc.devRef .tc main_v80) = Cert.ReferenceIdeal.Stage.row64 (m ((c : Thread nD τ).loc main_arg11)) := by
  show StableHlo.after hostOps7 (W13 m ρ c) (Proc.devRef .tc main_v80) = _
  simp only [hostOps7]
  after_results
  rw [at13_arg11 m ρ c]
  exact row64_of_reshape _

/-- The last stretch only makes that row: the third layer's result is as the region before it left it. -/
theorem at14_v79 : W14 m ρ c (Proc.devRef .tc main_v79) = W13 m ρ c (Proc.devRef .tc main_v79) := by
  keeps hostOps7

end Cert.KernelIdeal.Hand

end
-- ==== Proof.Region0.lean ====
/-
Region 0, the input projection. Grid point t takes rows 5000t … 5000t+4999 of x, the whole weight matrix and the one-row bias, and writes those rows of x · W + b. The ten row blocks tile the 50000 rows, so after the region the output array is x · W with the bias row added to every row.
-/
import proofs.«173057_j730144440424_1_alg».proof.Proof.Gen.KernelIdeal.Frame
import proofs.«173057_j730144440424_1_alg».proof.Proof.Stage
import Idealize.ShloMosaic.Lib.Pipeline.Value
import Idealize.ShloMosaic.Lib.ValueIdx
import Idealize.ShloMosaic.Lib.ValueLayout
import Idealize.ShloMosaic.PureOps.Ideal.Laws

noncomputable section

open Idealize.ShloMosaic Idealize.ShloMosaic.TcCoe Idealize.SL.Sem
open Idealize.ShloMosaic.Pipeline (Dat)

namespace Cert.KernelIdeal.Hand

open Cert.KernelIdeal Cert.KernelIdeal.Gen

namespace InputProjection

/-! ## The block product x_t · W at an entry

The body multiplies a 5000 × 256 block by the 256 × 128 weight matrix into a zero accumulator. On the extended reals
that is, at entry (p, q), the sum over k of block(p, k) · W(k, q): the left operand is read at row p of the output
entry and column k of the contraction, the right operand at row k and column q. -/

/-- The left operand's row is the output entry's row. -/
theorem blk_lhs_row (j : S5000x128.Idx) (u : dot_S5000x256_S256x128_S5000x128_1_0_0_1_n_n.contr.Idx) :
    (dot_S5000x256_S256x128_S5000x128_1_0_0_1_n_n.lhsIdx j u 0).val = (j 0).val := by
  unfold DotDims.lhsIdx
  rw [dif_neg (show ¬(0 : Fin S5000x256.rank) ∈ dot_S5000x256_S256x128_S5000x128_1_0_0_1_n_n.lhsBatch by decide), dif_pos (show (0 : Fin S5000x256.rank) ∈ dot_S5000x256_S256x128_S5000x128_1_0_0_1_n_n.lhsNonContracting by decide)]
  rfl

/-- The left operand's column is the contraction index. -/
theorem blk_lhs_col (j : S5000x128.Idx) (u : dot_S5000x256_S256x128_S5000x128_1_0_0_1_n_n.contr.Idx) :
    (dot_S5000x256_S256x128_S5000x128_1_0_0_1_n_n.lhsIdx j u 1).val = (u ⟨0, by decide⟩).val :=
  dot_S5000x256_S256x128_S5000x128_1_0_0_1_n_n.lhsIdx_val_of_single rfl j u

/-- The right operand's row is the contraction index. -/
theorem blk_rhs_row (j : S5000x128.Idx) (u : dot_S5000x256_S256x128_S5000x128_1_0_0_1_n_n.contr.Idx) :
    (dot_S5000x256_S256x128_S5000x128_1_0_0_1_n_n.rhsIdx j u 0).val = (u ⟨0, by decide⟩).val :=
  dot_S5000x256_S256x128_S5000x128_1_0_0_1_n_n.rhsIdx_val_of_single rfl j u

/-- The right operand's column is the output entry's column. -/
theorem blk_rhs_col (j : S5000x128.Idx) (u : dot_S5000x256_S256x128_S5000x128_1_0_0_1_n_n.contr.Idx) :
    (dot_S5000x256_S256x128_S5000x128_1_0_0_1_n_n.rhsIdx j u 1).val = (j 1).val := by
  unfold DotDims.rhsIdx
  rw [dif_neg (show ¬(1 : Fin S256x128.rank) ∈ dot_S5000x256_S256x128_S5000x128_1_0_0_1_n_n.rhsBatch by decide), dif_pos (show (1 : Fin S256x128.rank) ∈ dot_S5000x256_S256x128_S5000x128_1_0_0_1_n_n.rhsNonContracting by decide)]
  rfl

/-- Entry (p, q) of the block product is Σ_k l(p, k) · r(k, q). -/
theorem blk_prod_apply (l : FVec Ideal S5000x256 .bf16) (r : FVec Ideal S256x128 .bf16) (p : Fin 5000) (q : Fin 128) :
    FloatOps.matmul dot_S5000x256_S256x128_S5000x128_1_0_0_1_n_n none l r (constant S5000x128 .f32 0x00000000#32) (ValueIdx.ix2 p q)
      = ∑ k : Fin 256, l (ValueIdx.ix2 p k) * r (ValueIdx.ix2 k q) := by
  rw [Ideal.matmul_constant_zero_apply, ← Equiv.sum_comp (ValueIdx.contrEquiv1 dot_S5000x256_S256x128_S5000x128_1_0_0_1_n_n 256 rfl rfl).symm]
  refine Finset.sum_congr rfl fun k _ => ?_
  have hk := ValueIdx.contrEquiv1_symm_val dot_S5000x256_S256x128_S5000x128_1_0_0_1_n_n 256 rfl rfl k
  have el : dot_S5000x256_S256x128_S5000x128_1_0_0_1_n_n.lhsIdx (ValueIdx.ix2 p q) ((ValueIdx.contrEquiv1 dot_S5000x256_S256x128_S5000x128_1_0_0_1_n_n 256 rfl rfl).symm k) = ValueIdx.ix2 p k := funext fun a => Fin.ext (by
    match a with
    | ⟨0, _⟩ => exact blk_lhs_row _ _
    | ⟨1, _⟩ => exact (blk_lhs_col _ _).trans hk)
  have er : dot_S5000x256_S256x128_S5000x128_1_0_0_1_n_n.rhsIdx (ValueIdx.ix2 p q) ((ValueIdx.contrEquiv1 dot_S5000x256_S256x128_S5000x128_1_0_0_1_n_n 256 rfl rfl).symm k) = ValueIdx.ix2 k q := funext fun a => Fin.ext (by
    match a with
    | ⟨0, _⟩ => exact (blk_rhs_row _ _).trans hk
    | ⟨1, _⟩ => exact blk_rhs_col _ _)
  rw [el, er]

/-- The body's value at entry (p, q) of its block: Σ_k x(p, k) · W(k, q) + b(0, q). Narrowing to the short float
    type is the identity on the extended reals; the one-row bias is spread over the block's rows. -/
theorem body_apply (x : FVec Ideal S5000x256 .f32) (W : FVec Ideal S256x128 .f32) (b : FVec Ideal S1x128 .f32) (p : Fin 5000) (q : Fin 128) :
    k0_pay1 (F := Ideal) x W b (ValueIdx.ix2 p q) = (∑ k : Fin 256, x (ValueIdx.ix2 p k) * W (ValueIdx.ix2 k q)) + b (ValueIdx.ix2 0 q) := by
  unfold k0_pay1
  show addf (F := Ideal) (FloatOps.matmul dot_S5000x256_S256x128_S5000x128_1_0_0_1_n_n none (truncf .bf16 x bitsLt_bf16_f32) (truncf .bf16 W bitsLt_bf16_f32) (constant S5000x128 .f32 0x00000000#32))
      (broadcastTo S5000x128 (shapeCast S1x128 b shapeCasts_S1x128_S1x128) broadcasts_S1x128_S5000x128) (ValueIdx.ix2 p q) = _
  rw [ValueIdx.addf_apply, blk_prod_apply, shapeCast_self]
  rw [broadcastTo_apply b broadcasts_S1x128_S5000x128 (ValueIdx.ix2 p q) (ValueIdx.ix2 0 q) (fun a => match a with
    | ⟨0, _⟩ => by show 0 = if (1 : Nat) = 1 then 0 else _; rw [if_pos rfl]
    | ⟨1, _⟩ => by show q.val = if (128 : Nat) = 1 then 0 else q.val; rw [if_neg (by decide)])]
  rfl

/-! ## The whole-array product x · W at an entry

The stage multiplies the 50000 × 256 array by the same weight matrix with the host's product, which on the extended
reals is the same sum: entry (P, q) is Σ_k x(P, k) · W(k, q). -/

/-- The left operand's row is the output entry's row. -/
theorem arr_lhs_row (i : Cert.ReferenceIdeal.S50000x128.Idx) (u : Cert.ReferenceIdeal.dot_S50000x256_S256x128_S50000x128_1_0_0_1_n_n.contr.Idx) :
    (Cert.ReferenceIdeal.dot_S50000x256_S256x128_S50000x128_1_0_0_1_n_n.lhsIdx i u 0).val = (i 0).val := by
  unfold DotDims.lhsIdx
  rw [dif_neg (show ¬(0 : Fin Cert.ReferenceIdeal.S50000x256.rank) ∈ Cert.ReferenceIdeal.dot_S50000x256_S256x128_S50000x128_1_0_0_1_n_n.lhsBatch by decide), dif_pos (show (0 : Fin Cert.ReferenceIdeal.S50000x256.rank) ∈ Cert.ReferenceIdeal.dot_S50000x256_S256x128_S50000x128_1_0_0_1_n_n.lhsNonContracting by decide)]
  rfl

/-- The left operand's column is the contraction index. -/
theorem arr_lhs_col (i : Cert.ReferenceIdeal.S50000x128.Idx) (u : Cert.ReferenceIdeal.dot_S50000x256_S256x128_S50000x128_1_0_0_1_n_n.contr.Idx) :
    (Cert.ReferenceIdeal.dot_S50000x256_S256x128_S50000x128_1_0_0_1_n_n.lhsIdx i u 1).val = (u ⟨0, by decide⟩).val :=
  Cert.ReferenceIdeal.dot_S50000x256_S256x128_S50000x128_1_0_0_1_n_n.lhsIdx_val_of_single rfl i u

/-- The right operand's row is the contraction index. -/
theorem arr_rhs_row (i : Cert.ReferenceIdeal.S50000x128.Idx) (u : Cert.ReferenceIdeal.dot_S50000x256_S256x128_S50000x128_1_0_0_1_n_n.contr.Idx) :
    (Cert.ReferenceIdeal.dot_S50000x256_S256x128_S50000x128_1_0_0_1_n_n.rhsIdx i u 0).val = (u ⟨0, by decide⟩).val :=
  Cert.ReferenceIdeal.dot_S50000x256_S256x128_S50000x128_1_0_0_1_n_n.rhsIdx_val_of_single rfl i u

/-- The right operand's column is the output entry's column. -/
theorem arr_rhs_col (i : Cert.ReferenceIdeal.S50000x128.Idx) (u : Cert.ReferenceIdeal.dot_S50000x256_S256x128_S50000x128_1_0_0_1_n_n.contr.Idx) :
    (Cert.ReferenceIdeal.dot_S50000x256_S256x128_S50000x128_1_0_0_1_n_n.rhsIdx i u 1).val = (i 1).val := by
  unfold DotDims.rhsIdx
  rw [dif_neg (show ¬(1 : Fin Cert.ReferenceIdeal.S256x128.rank) ∈ Cert.ReferenceIdeal.dot_S50000x256_S256x128_S50000x128_1_0_0_1_n_n.rhsBatch by decide), dif_pos (show (1 : Fin Cert.ReferenceIdeal.S256x128.rank) ∈ Cert.ReferenceIdeal.dot_S50000x256_S256x128_S50000x128_1_0_0_1_n_n.rhsNonContracting by decide)]
  rfl

/-- Entry (P, q) of the whole-array product is Σ_k x(P, k) · W(k, q). -/
theorem arr_prod_apply (x : FVec Ideal Cert.ReferenceIdeal.S50000x256 .f32) (W : FVec Ideal Cert.ReferenceIdeal.S256x128 .f32) (P : Fin 50000) (q : Fin 128) :
    FloatOps.dotGeneral Cert.ReferenceIdeal.dot_S50000x256_S256x128_S50000x128_1_0_0_1_n_n none HostSchedule.single x W (ValueIdx.ix2 P q)
      = ∑ k : Fin 256, x (ValueIdx.ix2 P k) * W (ValueIdx.ix2 k q) := by
  rw [Ideal.dotGeneral_apply, ← Equiv.sum_comp (ValueIdx.contrEquiv1 Cert.ReferenceIdeal.dot_S50000x256_S256x128_S50000x128_1_0_0_1_n_n 256 rfl rfl).symm]
  refine Finset.sum_congr rfl fun k _ => ?_
  have hk := ValueIdx.contrEquiv1_symm_val Cert.ReferenceIdeal.dot_S50000x256_S256x128_S50000x128_1_0_0_1_n_n 256 rfl rfl k
  have el : Cert.ReferenceIdeal.dot_S50000x256_S256x128_S50000x128_1_0_0_1_n_n.lhsIdx (ValueIdx.ix2 P q) ((ValueIdx.contrEquiv1 Cert.ReferenceIdeal.dot_S50000x256_S256x128_S50000x128_1_0_0_1_n_n 256 rfl rfl).symm k) = ValueIdx.ix2 P k := funext fun a => Fin.ext (by
    match a with
    | ⟨0, _⟩ => exact arr_lhs_row _ _
    | ⟨1, _⟩ => exact (arr_lhs_col _ _).trans hk)
  have er : Cert.ReferenceIdeal.dot_S50000x256_S256x128_S50000x128_1_0_0_1_n_n.rhsIdx (ValueIdx.ix2 P q) ((ValueIdx.contrEquiv1 Cert.ReferenceIdeal.dot_S50000x256_S256x128_S50000x128_1_0_0_1_n_n 256 rfl rfl).symm k) = ValueIdx.ix2 k q := funext fun a => Fin.ext (by
    match a with
    | ⟨0, _⟩ => exact (arr_rhs_row _ _).trans hk
    | ⟨1, _⟩ => exact arr_rhs_col _ _)
  rw [el, er]

/-- The stage at entry (P, q): Σ_k x(P, k) · W(k, q) + b(0, q), the one-row bias spread over the 50000 rows. -/
theorem linrow128_apply (x : FVec Ideal Cert.ReferenceIdeal.S50000x256 .f32) (W : FVec Ideal Cert.ReferenceIdeal.S256x128 .f32) (b : FVec Ideal Cert.ReferenceIdeal.S1x128 .f32) (P : Fin 50000) (q : Fin 128) :
    Cert.ReferenceIdeal.Stage.linrow128 (F := Ideal) x W b (ValueIdx.ix2 P q) = (∑ k : Fin 256, x (ValueIdx.ix2 P k) * W (ValueIdx.ix2 k q)) + b (ValueIdx.ix2 0 q) := by
  show addf (F := Ideal) (FloatOps.dotGeneral Cert.ReferenceIdeal.dot_S50000x256_S256x128_S50000x128_1_0_0_1_n_n none HostSchedule.single x W)
      (broadcastInDim Cert.ReferenceIdeal.S50000x128 ![0, 1] _ b) (ValueIdx.ix2 P q) = _
  rw [ValueIdx.addf_apply, arr_prod_apply]
  rw [broadcastInDim_apply _ _ b (ValueIdx.ix2 P q) (ValueIdx.ix2 0 q) (fun a => match a with
    | ⟨0, _⟩ => by show 0 = if (1 : Nat) = 1 then 0 else _; rw [if_pos rfl]
    | ⟨1, _⟩ => by show q.val = if (128 : Nat) = 1 then 0 else q.val; rw [if_neg (by decide)])]

end InputProjection

-- `V`: the contents of the TensorCore's buffers when the region is entered.
variable (V : (c : Dev nD) → (b : Ref sig .tc) → Buf (Elt Ideal) ((c : Thread nD τ).loc b))

example : Pipeline.arrRef spec0 0 = main_arg0 := rfl
example : Pipeline.arrRef spec0 1 = main_arg2 := rfl
example : Pipeline.arrRef spec0 2 = main_v30 := rfl

namespace InputProjection

/-! ## The blocks

At grid point t the first window's block and the output window's block sit at block index (t, 0): rows 5000t … 5000t + 4999
and all columns. The weight matrix's and the bias row's windows are the whole arrays at block index (0, 0). -/

/-- Both offsets of a rectangle that is the whole block. -/
theorem off_zero : (![0, 0] : Fin 2 → Nat) = fun _ => 0 := funext fun a => by fin_cases a <;> rfl

/-- Each window's block index, on both axes, at each of the ten grid points. -/
theorem index_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- Entry (p, k) of the first window's block at point t is x(5000t + p, k). -/
theorem x_block_apply (c : Dev nD) (t : Fin cfg0.N) (p : Fin 5000) (k : Fin 256) (P : Fin 50000) (hP : P.val = 5000 * t.val + p.val) :
    (iblk0 (F := Ideal) V c 0 t : FVec Ideal S5000x256 .f32) (ValueIdx.ix2 p k) = (V c main_arg0 : FVec Ideal S50000x256 .f32) (ValueIdx.ix2 P k) := by
  obtain ⟨e0, e1, -⟩ := index_facts t
  show (V c main_arg0 : FVec Ideal S50000x256 .f32) (((cfg0.win 0).blk t).view.emb (ValueIdx.ix2 p k)) = _
  refine congrArg (V c main_arg0 : FVec Ideal S50000x256 .f32) (funext fun a => Fin.ext ?_)
  match a with
  | ⟨0, _⟩ => show win0_0.index t (0 : Fin 2) * 5000 + 1 * p.val = P.val; rw [e0, hP]; omega
  | ⟨1, _⟩ => show win0_0.index t (1 : Fin 2) * 256 + 1 * k.val = k.val; rw [e1]; omega

/-- The second window's block is the weight matrix itself, at every point. -/
theorem w_block_apply (c : Dev nD) (t : Fin cfg0.N) (k : Fin 256) (q : Fin 128) :
    (iblk0 (F := Ideal) V c 1 t : FVec Ideal S256x128 .f32) (ValueIdx.ix2 k q) = (V c main_arg2 : FVec Ideal S256x128 .f32) (ValueIdx.ix2 k q) := by
  obtain ⟨-, -, e0, e1, -⟩ := index_facts t
  show (V c main_arg2 : FVec Ideal S256x128 .f32) (((cfg0.win 1).blk t).view.emb (ValueIdx.ix2 k q)) = _
  refine congrArg (V c main_arg2 : FVec Ideal S256x128 .f32) (funext fun a => Fin.ext ?_)
  match a with
  | ⟨0, _⟩ => show win0_1.index t (0 : Fin 2) * 256 + 1 * k.val = k.val; rw [e0]; omega
  | ⟨1, _⟩ => show win0_1.index t (1 : Fin 2) * 128 + 1 * q.val = q.val; rw [e1]; omega

/-- The third window's block is the bias row itself, at every point. -/
theorem b_block_apply (c : Dev nD) (t : Fin cfg0.N) (z : Fin 1) (q : Fin 128) :
    (iblk0 (F := Ideal) V c 2 t : FVec Ideal S1x128 .f32) (ValueIdx.ix2 z q) = (V c main_v30 : FVec Ideal S1x128 .f32) (ValueIdx.ix2 z q) := by
  obtain ⟨-, -, -, -, e0, e1, -⟩ := index_facts t
  show (V c main_v30 : FVec Ideal S1x128 .f32) (((cfg0.win 2).blk t).view.emb (ValueIdx.ix2 z q)) = _
  refine congrArg (V c main_v30 : FVec Ideal S1x128 .f32) (funext fun a => Fin.ext ?_)
  match a with
  | ⟨0, _⟩ => show win0_2.index t (0 : Fin 2) * 1 + 1 * z.val = z.val; rw [e0]; omega
  | ⟨1, _⟩ => show win0_2.index t (1 : Fin 2) * 128 + 1 * q.val = q.val; rw [e1]; omega

/-- Entry (p, q) of the output window's block at point t is entry (5000t + p, q) of the output array. -/
theorem out_block_emb (t : Fin cfg0.N) (p : Fin 5000) (q : Fin 128) (P : Fin 50000) (hP : P.val = 5000 * t.val + p.val) :
    ((cfg0.win 3).blk t).view.emb (ValueIdx.ix2 p q) = (ValueIdx.ix2 P q : S50000x128.Idx) := by
  obtain ⟨-, -, -, -, -, -, e0, e1⟩ := index_facts t
  refine funext fun a => Fin.ext ?_
  match a with
  | ⟨0, _⟩ => show win0_3.index t (0 : Fin 2) * 5000 + 1 * p.val = P.val; rw [e0, hP]; omega
  | ⟨1, _⟩ => show win0_3.index t (1 : Fin 2) * 128 + 1 * q.val = q.val; rw [e1]; omega

/-! ## What a point writes back, and the array after the ten write-backs -/

/-- Point t writes back block t of the stage's array: at entry (p, q) of the block both sides are
    Σ_k x(5000t + p, k) · W(k, q) + b(0, q). -/
theorem flushed_rows (c : Dev nD) (t : Fin cfg0.N) :
    (dat0 (F := Ideal) V c).flushed 3 t
      = ((cfg0.win 3).blk t).view.read (Elt Ideal) (Cert.ReferenceIdeal.Stage.linrow128 (F := Ideal) (V c main_arg0) (V c main_arg2) (V c main_v30)) := by
  show (cfg0.win 3).cut (grid0.coords t) ((dat0 (F := Ideal) V c).after 3 t) = _
  rw [after0_3]
  unfold out0_3
  rw [View.canon_unit_zero off_zero]
  simp only [View.ld_unit_zero (S := S5000x256) off_zero, View.ld_unit_zero (S := S256x128) off_zero, View.ld_unit_zero (S := S1x128) off_zero]
  refine funext fun (j : S5000x128.Idx) => ?_
  obtain ⟨p, q, rfl⟩ : ∃ (p : Fin 5000) (q : Fin 128), j = ValueIdx.ix2 p q := ⟨j 0, j 1, ValueIdx.eq_ix2 j⟩
  have ht : t.val < 10 := lt_of_lt_of_eq t.isLt N_0
  obtain ⟨P, hP⟩ : ∃ P : Fin 50000, P.val = 5000 * t.val + p.val := ⟨⟨5000 * t.val + p.val, by have := p.isLt; omega⟩, rfl⟩
  show k0_pay1 (F := Ideal) (iblk0 V c 0 t) (iblk0 V c 1 t) (iblk0 V c 2 t) (ValueIdx.ix2 p q)
      = Cert.ReferenceIdeal.Stage.linrow128 (F := Ideal) (V c main_arg0) (V c main_arg2) (V c main_v30) (((cfg0.win 3).blk t).view.emb (ValueIdx.ix2 p q))
  rw [out_block_emb t p q P hP, linrow128_apply, body_apply, b_block_apply V c t 0 q]
  refine congrArg (· + _) (Finset.sum_congr rfl fun k _ => ?_)
  rw [x_block_apply V c t p k P hP, w_block_apply V c t k q]

/-- Row r of the output array lies in the block of point r / 5000. -/
theorem rows_cover (i : S50000x128.Idx) : ∃ t : Fin cfg0.N, (cfg0.win 3).flush t = true ∧ i ∈ ((cfg0.win 3).blk t).view.set := by
  have h0 : (i 0).val < 50000 := (i 0).isLt
  have h1 : (i 1).val < 128 := (i 1).isLt
  obtain ⟨t, ht⟩ : ∃ t : Fin cfg0.N, t.val = (i 0).val / 5000 := ⟨⟨(i 0).val / 5000, lt_of_lt_of_eq (by omega) N_0.symm⟩, rfl⟩
  obtain ⟨-, -, -, -, -, -, e0, e1⟩ := index_facts t
  refine ⟨t, flush0_3 t, ?_⟩
  show i ∈ ((View.whole main_v31).slice (win0_3.rect t)).set
  rw [View.set_slice_whole, Rect.mem_set_unit]
  intro a
  match a with
  | ⟨0, _⟩ => show win0_3.index t (0 : Fin 2) * 5000 ≤ (i 0).val ∧ (i 0).val < win0_3.index t (0 : Fin 2) * 5000 + 5000; rw [e0, ht]; omega
  | ⟨1, _⟩ => show win0_3.index t (1 : Fin 2) * 128 ≤ (i 1).val ∧ (i 1).val < win0_3.index t (1 : Fin 2) * 128 + 128; rw [e1]; omega

end InputProjection

/-- After the region its output array holds the stage's whole-array value of the arrays the region found. -/
theorem final0 (c : Dev nD) :
    (dat0 (F := Ideal) V c).arrAt 3 cfg0.N = Cert.ReferenceIdeal.Stage.linrow128 (F := Ideal) (V c main_arg0) (V c main_arg2) (V c main_v30) := by
  exact (dat0 (F := Ideal) V c).arrAt_eq_of_cover 3 _ (fun t _ => InputProjection.flushed_rows V c t) InputProjection.rows_cover

end Cert.KernelIdeal.Hand

end
-- ==== Proof.Region1.lean ====
/-
Region 1, the first layer's feature transform. Grid point t takes rows 5000t … 5000t+4999 of h and the whole 128 × 128 weight matrix and writes those rows of h · W; a row of a matrix product depends on that row of h only, and the ten row blocks tile the 50000 rows, so after the region the output array is h · W.
-/
import proofs.«173057_j730144440424_1_alg».proof.Proof.Gen.KernelIdeal.Frame
import proofs.«173057_j730144440424_1_alg».proof.Proof.Stage
import Idealize.ShloMosaic.Lib.Pipeline.Value
import Idealize.ShloMosaic.Lib.ValueIdx
import Idealize.ShloMosaic.Lib.ValueLayout
import Idealize.ShloMosaic.PureOps.Ideal.Laws

noncomputable section

open Idealize.ShloMosaic Idealize.ShloMosaic.TcCoe Idealize.SL.Sem
open Idealize.ShloMosaic.Pipeline (Dat)

namespace Cert.KernelIdeal.Hand

open Cert.KernelIdeal Cert.KernelIdeal.Gen

-- `V`: the contents of the TensorCore's buffers when the region is entered.
variable (V : (c : Dev nD) → (b : Ref sig .tc) → Buf (Elt Ideal) ((c : Thread nD τ).loc b))

example : Pipeline.arrRef spec1 0 = main_v31 := rfl
example : Pipeline.arrRef spec1 1 = main_arg4 := rfl

/-! ## The block product at an index

The body multiplies a 5000 × 128 block by the 128 × 128 matrix. Entry (p, q) of the product pairs entry (p, k) of the
left factor with entry (k, q) of the right one, and sums over the 128 values of k. -/

/-- Left factor, row axis: the product's row. -/
theorem r1_blk_lhs_row (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
/-- Left factor, column axis: the summation position. -/
theorem r1_blk_lhs_col (i : S5000x128.Idx) (q : dot_S5000x128_S128x128_S5000x128_1_0_0_1_n_n.contr.Idx) :
    (dot_S5000x128_S128x128_S5000x128_1_0_0_1_n_n.lhsIdx i q 1).val = (q ⟨0, by decide⟩).val :=
  dot_S5000x128_S128x128_S5000x128_1_0_0_1_n_n.lhsIdx_val_of_single rfl i q
/-- Right factor, row axis: the summation position. -/
theorem r1_blk_rhs_row (i : S5000x128.Idx) (q : dot_S5000x128_S128x128_S5000x128_1_0_0_1_n_n.contr.Idx) :
    (dot_S5000x128_S128x128_S5000x128_1_0_0_1_n_n.rhsIdx i q 0).val = (q ⟨0, by decide⟩).val :=
  dot_S5000x128_S128x128_S5000x128_1_0_0_1_n_n.rhsIdx_val_of_single rfl i q
/-- Right factor, column axis: the product's column. -/
theorem r1_blk_rhs_col (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- Entry (row of i, k) of the left block. -/
abbrev r1_blk_lidx (i : S5000x128.Idx) (k : Fin 128) : S5000x128.Idx := fun a => match a with
  | ⟨0, _⟩ => ⟨(i 0).val, (i 0).isLt⟩
  | ⟨1, _⟩ => ⟨k.val, k.isLt⟩
/-- Entry (k, column of i) of the weight matrix. -/
abbrev r1_blk_ridx (i : S5000x128.Idx) (k : Fin 128) : S128x128.Idx := fun a => match a with
  | ⟨0, _⟩ => ⟨k.val, k.isLt⟩
  | ⟨1, _⟩ => ⟨(i 1).val, (i 1).isLt⟩

/-- The block product into a zero accumulator, at an entry: the plain sum over the 128 summation positions. -/
theorem r1_blk_mm_apply (l : FVec Ideal S5000x128 .bf16) (r : FVec Ideal S128x128 .bf16) (i : S5000x128.Idx) :
    matmul dot_S5000x128_S128x128_S5000x128_1_0_0_1_n_n none l r (constant (F := Ideal) S5000x128 .f32 0x00000000#32) i
      = ∑ k : Fin 128, l (r1_blk_lidx i k) * r (r1_blk_ridx i k) := by
  show FloatOps.matmul dot_S5000x128_S128x128_S5000x128_1_0_0_1_n_n none l r (constant (F := Ideal) S5000x128 .f32 0x00000000#32) i = _
  rw [Ideal.matmul_constant_zero_apply, ← Equiv.sum_comp (ValueIdx.contrEquiv1 dot_S5000x128_S128x128_S5000x128_1_0_0_1_n_n 128 rfl rfl).symm]
  refine Finset.sum_congr rfl fun k _ => ?_
  have hk := ValueIdx.contrEquiv1_symm_val dot_S5000x128_S128x128_S5000x128_1_0_0_1_n_n 128 rfl rfl k
  have el : dot_S5000x128_S128x128_S5000x128_1_0_0_1_n_n.lhsIdx i ((ValueIdx.contrEquiv1 dot_S5000x128_S128x128_S5000x128_1_0_0_1_n_n 128 rfl rfl).symm k) = r1_blk_lidx i k := funext fun a => Fin.ext (by
    match a with
    | ⟨0, _⟩ => exact r1_blk_lhs_row _ _
    | ⟨1, _⟩ => exact (r1_blk_lhs_col _ _).trans hk)
  have er : dot_S5000x128_S128x128_S5000x128_1_0_0_1_n_n.rhsIdx i ((ValueIdx.contrEquiv1 dot_S5000x128_S128x128_S5000x128_1_0_0_1_n_n 128 rfl rfl).symm k) = r1_blk_ridx i k := funext fun a => Fin.ext (by
    match a with
    | ⟨0, _⟩ => exact (r1_blk_rhs_row _ _).trans hk
    | ⟨1, _⟩ => exact r1_blk_rhs_col _ _)
  rw [el, er]

/-- The body's arithmetic at an entry: the change of float format is the identity on extended reals, so the payload
    is the block product of the two loaded blocks. -/
theorem r1_pay_apply (x0 : Vec Ideal S5000x128 .f32) (x1 : Vec Ideal S128x128 .f32) (i : S5000x128.Idx) :
    (k1_pay1 (F := Ideal) x0 x1) i = ∑ k : Fin 128, x0 (r1_blk_lidx i k) * x1 (r1_blk_ridx i k) := by
  unfold k1_pay1
  simp only [shapeCast_self]
  exact r1_blk_mm_apply _ _ i

/-! ## The whole product at an index

The stage multiplies the whole 50000 × 128 array by the same 128 × 128 matrix; its entry (p, q) is the same sum, over
the whole array's row p. -/

/-- Left factor, row axis: the product's row. -/
theorem r1_arr_lhs_row (i : Cert.ReferenceIdeal.S50000x128.Idx) (q : Cert.ReferenceIdeal.dot_S50000x128_S128x128_S50000x128_1_0_0_1_n_n.contr.Idx) :
    (Cert.ReferenceIdeal.dot_S50000x128_S128x128_S50000x128_1_0_0_1_n_n.lhsIdx i q 0).val = (i 0).val := by
  unfold DotDims.lhsIdx
  rw [dif_neg (show ¬(0 : Fin Cert.ReferenceIdeal.S50000x128.rank) ∈ Cert.ReferenceIdeal.dot_S50000x128_S128x128_S50000x128_1_0_0_1_n_n.lhsBatch by decide), dif_pos (show (0 : Fin Cert.ReferenceIdeal.S50000x128.rank) ∈ Cert.ReferenceIdeal.dot_S50000x128_S128x128_S50000x128_1_0_0_1_n_n.lhsNonContracting by decide)]
  rfl
/-- Left factor, column axis: the summation position. -/
theorem r1_arr_lhs_col (i : Cert.ReferenceIdeal.S50000x128.Idx) (q : Cert.ReferenceIdeal.dot_S50000x128_S128x128_S50000x128_1_0_0_1_n_n.contr.Idx) :
    (Cert.ReferenceIdeal.dot_S50000x128_S128x128_S50000x128_1_0_0_1_n_n.lhsIdx i q 1).val = (q ⟨0, by decide⟩).val :=
  Cert.ReferenceIdeal.dot_S50000x128_S128x128_S50000x128_1_0_0_1_n_n.lhsIdx_val_of_single rfl i q
/-- Right factor, row axis: the summation position. -/
theorem r1_arr_rhs_row (i : Cert.ReferenceIdeal.S50000x128.Idx) (q : Cert.ReferenceIdeal.dot_S50000x128_S128x128_S50000x128_1_0_0_1_n_n.contr.Idx) :
    (Cert.ReferenceIdeal.dot_S50000x128_S128x128_S50000x128_1_0_0_1_n_n.rhsIdx i q 0).val = (q ⟨0, by decide⟩).val :=
  Cert.ReferenceIdeal.dot_S50000x128_S128x128_S50000x128_1_0_0_1_n_n.rhsIdx_val_of_single rfl i q
/-- Right factor, column axis: the product's column. -/
theorem r1_arr_rhs_col (i : Cert.ReferenceIdeal.S50000x128.Idx) (q : Cert.ReferenceIdeal.dot_S50000x128_S128x128_S50000x128_1_0_0_1_n_n.contr.Idx) :
    (Cert.ReferenceIdeal.dot_S50000x128_S128x128_S50000x128_1_0_0_1_n_n.rhsIdx i q 1).val = (i 1).val := by
  unfold DotDims.rhsIdx
  rw [dif_neg (show ¬(1 : Fin Cert.ReferenceIdeal.S128x128.rank) ∈ Cert.ReferenceIdeal.dot_S50000x128_S128x128_S50000x128_1_0_0_1_n_n.rhsBatch by decide), dif_pos (show (1 : Fin Cert.ReferenceIdeal.S128x128.rank) ∈ Cert.ReferenceIdeal.dot_S50000x128_S128x128_S50000x128_1_0_0_1_n_n.rhsNonContracting by decide)]
  rfl

/-- Entry (row of i, k) of the whole left array. -/
abbrev r1_arr_lidx (i : Cert.ReferenceIdeal.S50000x128.Idx) (k : Fin 128) : Cert.ReferenceIdeal.S50000x128.Idx := fun a => match a with
  | ⟨0, _⟩ => ⟨(i 0).val, (i 0).isLt⟩
  | ⟨1, _⟩ => ⟨k.val, k.isLt⟩
/-- Entry (k, column of i) of the weight matrix. -/
abbrev r1_arr_ridx (i : Cert.ReferenceIdeal.S50000x128.Idx) (k : Fin 128) : Cert.ReferenceIdeal.S128x128.Idx := fun a => match a with
  | ⟨0, _⟩ => ⟨k.val, k.isLt⟩
  | ⟨1, _⟩ => ⟨(i 1).val, (i 1).isLt⟩

/-- The stage at an entry: the plain sum over the 128 summation positions. -/
theorem r1_stage_apply (h : FVec Ideal Cert.ReferenceIdeal.S50000x128 .f32) (W : FVec Ideal Cert.ReferenceIdeal.S128x128 .f32) (i : Cert.ReferenceIdeal.S50000x128.Idx) :
    Cert.ReferenceIdeal.Stage.mm (F := Ideal) h W i = ∑ k : Fin 128, h (r1_arr_lidx i k) * W (r1_arr_ridx i k) := by
  show FloatOps.dotGeneral Cert.ReferenceIdeal.dot_S50000x128_S128x128_S50000x128_1_0_0_1_n_n none _ h W i = _
  rw [Ideal.dotGeneral_apply, ← Equiv.sum_comp (ValueIdx.contrEquiv1 Cert.ReferenceIdeal.dot_S50000x128_S128x128_S50000x128_1_0_0_1_n_n 128 rfl rfl).symm]
  refine Finset.sum_congr rfl fun k _ => ?_
  have hk := ValueIdx.contrEquiv1_symm_val Cert.ReferenceIdeal.dot_S50000x128_S128x128_S50000x128_1_0_0_1_n_n 128 rfl rfl k
  have el : Cert.ReferenceIdeal.dot_S50000x128_S128x128_S50000x128_1_0_0_1_n_n.lhsIdx i ((ValueIdx.contrEquiv1 Cert.ReferenceIdeal.dot_S50000x128_S128x128_S50000x128_1_0_0_1_n_n 128 rfl rfl).symm k) = r1_arr_lidx i k := funext fun a => Fin.ext (by
    match a with
    | ⟨0, _⟩ => exact r1_arr_lhs_row _ _
    | ⟨1, _⟩ => exact (r1_arr_lhs_col _ _).trans hk)
  have er : Cert.ReferenceIdeal.dot_S50000x128_S128x128_S50000x128_1_0_0_1_n_n.rhsIdx i ((ValueIdx.contrEquiv1 Cert.ReferenceIdeal.dot_S50000x128_S128x128_S50000x128_1_0_0_1_n_n 128 rfl rfl).symm k) = r1_arr_ridx i k := funext fun a => Fin.ext (by
    match a with
    | ⟨0, _⟩ => exact (r1_arr_rhs_row _ _).trans hk
    | ⟨1, _⟩ => exact r1_arr_rhs_col _ _)
  rw [el, er]

/-! ## One grid point

A block of 5000 rows whose entry (p, ·) is the whole array's entry (5000 n + p, ·), multiplied by the weight matrix,
is rows 5000 n … 5000 n + 4999 of the whole product: entry (p, q) of either is the sum over k of the array's entry
(5000 n + p, k) times the matrix's entry (k, q). -/

/-- The payload of such a block at entry j is the whole product at the entry i that j sits at. -/
theorem r1_point (h : FVec Ideal Cert.ReferenceIdeal.S50000x128 .f32) (W : FVec Ideal Cert.ReferenceIdeal.S128x128 .f32)
    (x0 : Vec Ideal S5000x128 .f32) (x1 : Vec Ideal S128x128 .f32) (n : Nat)
    (hx0 : ∀ (y : S5000x128.Idx) (z : Cert.ReferenceIdeal.S50000x128.Idx),
      (z 0).val = n * 5000 + (y 0).val → (z 1).val = (y 1).val → x0 y = h z)
    (hx1 : ∀ (y : S128x128.Idx) (z : Cert.ReferenceIdeal.S128x128.Idx),
      (z 0).val = (y 0).val → (z 1).val = (y 1).val → x1 y = W z)
    (j : S5000x128.Idx) (i : Cert.ReferenceIdeal.S50000x128.Idx)
    (hi0 : (i 0).val = n * 5000 + (j 0).val) (hi1 : (i 1).val = (j 1).val) :
    (k1_pay1 (F := Ideal) x0 x1) j = Cert.ReferenceIdeal.Stage.mm (F := Ideal) h W i := by
  rw [r1_pay_apply, r1_stage_apply]
  refine Finset.sum_congr rfl fun k _ => ?_
  rw [hx0 (r1_blk_lidx j k) (r1_arr_lidx i k) hi0 rfl, hx1 (r1_blk_ridx j k) (r1_arr_ridx i k) rfl hi1]

/-! ## The blocks of the three windows

At each of the ten grid points t the row window and the output window sit at block row t, block column 0, and the
weight window at block (0, 0); a block's entry sits in its array, on each axis, at block index × block size + its own
coordinate. -/

/-- The zero offset on both axes: the body loads and stores whole blocks. -/
theorem r1_hz : (![0, 0] : Fin 2 → Nat) = fun _ => 0 := funext fun a => by fin_cases a <;> rfl

/-- The block indices of the three windows at every grid point. -/
theorem r1_idx_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- The row window's block at point t: entry (p, q) is the array's entry (5000 t + p, q). -/
theorem r1_rows_apply (c : Dev nD) (t : Fin cfg1.N) (y : S5000x128.Idx) (z : Cert.ReferenceIdeal.S50000x128.Idx)
    (hz0 : (z 0).val = t.val * 5000 + (y 0).val) (hz1 : (z 1).val = (y 1).val) :
    (iblk1 V c 0 t : Vec Ideal S5000x128 .f32) y = (V c main_v31 : Cert.ReferenceIdeal.S50000x128.Idx → Elt Ideal .f32) z := by
  obtain ⟨e0, e1, -, -, -, -⟩ := r1_idx_facts t
  unfold iblk1
  rw [View.read_apply]
  show V c main_v31 (((cfg1.win 0).blk t).view.emb y) = V c main_v31 z
  congr 1
  funext a
  apply Fin.ext
  match a with
  | ⟨0, _⟩ => show win1_0.index t (0 : Fin 2) * 5000 + 1 * (y 0).val = (z 0).val; rw [e0, hz0]; omega
  | ⟨1, _⟩ => show win1_0.index t (1 : Fin 2) * 128 + 1 * (y 1).val = (z 1).val; rw [e1, hz1]; omega

/-- The weight window's block at every point is the whole weight matrix. -/
theorem r1_weights_apply (c : Dev nD) (t : Fin cfg1.N) (y : S128x128.Idx) (z : Cert.ReferenceIdeal.S128x128.Idx)
    (hz0 : (z 0).val = (y 0).val) (hz1 : (z 1).val = (y 1).val) :
    (iblk1 V c 1 t : Vec Ideal S128x128 .f32) y = (V c main_arg4 : Cert.ReferenceIdeal.S128x128.Idx → Elt Ideal .f32) z := by
  obtain ⟨-, -, e0, e1, -, -⟩ := r1_idx_facts t
  unfold iblk1
  rw [View.read_apply]
  show V c main_arg4 (((cfg1.win 1).blk t).view.emb y) = V c main_arg4 z
  congr 1
  funext a
  apply Fin.ext
  match a with
  | ⟨0, _⟩ => show win1_1.index t (0 : Fin 2) * 128 + 1 * (y 0).val = (z 0).val; rw [e0, hz0]; omega
  | ⟨1, _⟩ => show win1_1.index t (1 : Fin 2) * 128 + 1 * (y 1).val = (z 1).val; rw [e1, hz1]; omega

/-! ## What a point writes back, and the array after the region -/

/-- What point t writes back is block t (rows 5000 t … 5000 t + 4999) of the whole product. -/
theorem r1_flushed (c : Dev nD) (t : Fin cfg1.N) :
    (dat1 (F := Ideal) V c).flushed 2 t = ((cfg1.win 2).blk t).view.read (Elt Ideal)
      (Cert.ReferenceIdeal.Stage.mm (F := Ideal) (V c main_v31) (V c main_arg4)) := by
  show (cfg1.win 2).cut (grid1.coords t) ((dat1 V c).after 2 t) = _
  rw [after1_2]
  unfold out1_2
  rw [View.canon_unit_zero r1_hz]
  simp only [View.ld_unit_zero (S := S5000x128) r1_hz, View.ld_unit_zero (S := S128x128) r1_hz]
  obtain ⟨-, -, -, -, e0, e1⟩ := r1_idx_facts t
  funext j
  show (k1_pay1 (F := Ideal) (iblk1 V c 0 t) (iblk1 V c 1 t)) j = Cert.ReferenceIdeal.Stage.mm (F := Ideal) (V c main_v31) (V c main_arg4) (((cfg1.win 2).blk t).view.emb j)
  refine r1_point (V c main_v31) (V c main_arg4) (iblk1 V c 0 t) (iblk1 V c 1 t) t.val
    (fun y z h0 h1 => r1_rows_apply V c t y z h0 h1) (fun y z h0 h1 => r1_weights_apply V c t y z h0 h1)
    j (((cfg1.win 2).blk t).view.emb j) ?_ ?_
  · show win1_2.index t (0 : Fin 2) * 5000 + 1 * (j 0).val = t.val * 5000 + (j 0).val; rw [e0]; omega
  · show win1_2.index t (1 : Fin 2) * 128 + 1 * (j 1).val = (j 1).val; rw [e1]; omega

/-- An index of the output array is in point t's block iff each coordinate is in the block's range on its axis. -/
theorem r1_mem_blk (t : Fin cfg1.N) (i : S50000x128.Idx) :
    i ∈ ((cfg1.win 2).blk t).view.set ↔ ∀ a : Fin 2, win1_2.index t a * S5000x128.size a ≤ (i a).val ∧ (i a).val < win1_2.index t a * S5000x128.size a + S5000x128.size a := by
  show i ∈ ((View.whole main_v32).slice (win1_2.rect t)).set ↔ _
  rw [View.set_slice_whole, Rect.mem_set_unit]
  exact Iff.rfl

/-- The ten row blocks tile the 50000 rows: row r is in the block of point r / 5000. -/
theorem r1_cover (i : S50000x128.Idx) :
    ∃ t : Fin cfg1.N, (cfg1.win 2).flush t = true ∧ i ∈ ((cfg1.win 2).blk t).view.set := by
  have hN : grid1.N = 10 := N_1
  have hi0 : (i 0).val < 50000 := (i 0).isLt
  have hi1 : (i 1).val < 128 := (i 1).isLt
  refine ⟨⟨(i 0).val / 5000, by rw [show cfg1.N = 10 from N_1]; omega⟩, flush1_2 _, ?_⟩
  rw [r1_mem_blk]
  obtain ⟨-, -, -, -, e0, e1⟩ := r1_idx_facts ⟨(i 0).val / 5000, by rw [show cfg1.N = 10 from N_1]; omega⟩
  intro a
  match a with
  | ⟨0, _⟩ => show win1_2.index _ (0 : Fin 2) * 5000 ≤ (i 0).val ∧ (i 0).val < win1_2.index _ (0 : Fin 2) * 5000 + 5000; rw [e0]; show (i 0).val / 5000 * 5000 ≤ (i 0).val ∧ (i 0).val < (i 0).val / 5000 * 5000 + 5000; omega
  | ⟨1, _⟩ => show win1_2.index _ (1 : Fin 2) * 128 ≤ (i 1).val ∧ (i 1).val < win1_2.index _ (1 : Fin 2) * 128 + 128; rw [e1]; omega

/-- After the region its output array holds the stage's whole-array value of the arrays the region found. -/
theorem final1 (c : Dev nD) :
    (dat1 (F := Ideal) V c).arrAt 2 cfg1.N = Cert.ReferenceIdeal.Stage.mm (F := Ideal) (V c main_v31) (V c main_arg4) :=
  (dat1 (F := Ideal) V c).arrAt_eq_of_cover 2 (Cert.ReferenceIdeal.Stage.mm (F := Ideal) (V c main_v31) (V c main_arg4))
    (fun t _ => r1_flushed V c t) r1_cover

end Cert.KernelIdeal.Hand

end
-- ==== Proof.Region2.lean ====
/-
Region 2, the first layer's bias and rectifier. Grid point t takes rows 5000t … 5000t+4999 of the aggregate and the one-row bias and writes max(a + b, 0) entry by entry; the ten row blocks tile the 50000 rows.

Write A for the [50000, 128] aggregate and R for the [1, 128] bias row that the region finds, and
G(r, q) = max(A(r, q) + R(0, q), 0) for the stage's value at row r, column q.
  * At entry (p, q) of a block the body computes max(x(p, q) + b(0, q), 0) from the block x and the row b it loaded: the
    row is spread over the block's 5000 rows, so of the row only the entry in column q is read.
  * At grid point t the loaded block is x(p, q) = A(5000t + p, q), the loaded row is b = R, and the output block sits at the
    same rows 5000t … 5000t+4999 of the output array. So what point t writes back is G on those rows.
  * Row r lies in the block of point r / 5000, and every point writes its block back: the ten blocks cover the output
    array, which therefore ends holding G.
-/
import proofs.«173057_j730144440424_1_alg».proof.Proof.Gen.KernelIdeal.Frame
import proofs.«173057_j730144440424_1_alg».proof.Proof.Stage
import Idealize.ShloMosaic.Lib.Pipeline.Value
import Idealize.ShloMosaic.Lib.ValueIdx
import Idealize.ShloMosaic.Lib.ValueLayout
import Idealize.ShloMosaic.Lib.KernelVsHost
import Idealize.ShloMosaic.PureOps.Ideal.Laws

noncomputable section

open Idealize.ShloMosaic Idealize.ShloMosaic.TcCoe Idealize.SL.Sem
open Idealize.ShloMosaic.Pipeline (Dat)
open Idealize.ShloMosaic.ValueIdx

namespace Cert.KernelIdeal.Hand

open Cert.KernelIdeal Cert.KernelIdeal.Gen

-- `V`: the contents of the TensorCore's buffers when the region is entered.
variable (V : (c : Dev nD) → (b : Ref sig .tc) → Buf (Elt Ideal) ((c : Thread nD τ).loc b))

example : Pipeline.arrRef spec2 0 = main_v45 := rfl
example : Pipeline.arrRef spec2 1 = main_v46 := rfl

/-! ## One entry of the body's result, and one entry of the stage -/

/-- The body loads and stores through the rectangle at offsets (0, 0): the zero offsets as a constant function. -/
theorem r2_hz : (![0, 0] : Fin 2 → Nat) = fun _ => 0 := funext fun a => by fin_cases a <;> rfl

/-- The body's arithmetic at entry (p, q) of its block. The two casts are to the shape the operand already has and change
    nothing; the one-row operand is spread over the 5000 rows, so at (p, q) it is read at (0, q); the sum is taken
    entry by entry, and so is the larger of the sum and the zero constant, which is the same at every entry. -/
theorem r2_pay_apply (x : Vec Ideal S5000x128 .f32) (b : Vec Ideal S1x128 .f32) (p : Fin 5000) (q : Fin 128) :
    k2_pay1 (F := Ideal) x b (ix2 p q) = max (x (ix2 p q) + b (ix2 (0 : Fin 1) q)) (Ideal.ofBits .f32 0x00000000#32) := by
  unfold k2_pay1
  simp only [shapeCast_self]
  rw [maximumf_apply, addf_apply, broadcast_apply, broadcastTo_1b_ab_apply]
  rfl

/-- The stage at entry (r, q) of the whole array: the same expression of the array's entry (r, q) and the row's entry
    (0, q). The stage spreads the one row over the 50000 rows, read at (r, q) as the row at (0, q), and its zero is the
    constant of the same word as the body's, read at any entry. -/
theorem r2_stage_apply (A : FVec Ideal S50000x128 .f32) (R : FVec Ideal S1x128 .f32) (r : Fin 50000) (q : Fin 128) :
    Cert.ReferenceIdeal.Stage.brelurow (F := Ideal) A R (ix2 r q) = max (A (ix2 r q) + R (ix2 (0 : Fin 1) q)) (Ideal.ofBits .f32 0x00000000#32) := by
  unfold Cert.ReferenceIdeal.Stage.brelurow
  rw [maximumf_apply, addf_apply, broadcastInDim_oneRow_apply]
  rfl

/-- So entry (p, q) of the body's result is entry (r, q) of the stage as soon as the block's entry (p, q) is the array's
    entry (r, q) and the two rows agree in column q: each side depends on exactly those two entries. -/
theorem r2_point (A : FVec Ideal S50000x128 .f32) (R : FVec Ideal S1x128 .f32)
    (x : Vec Ideal S5000x128 .f32) (b : Vec Ideal S1x128 .f32) (p : Fin 5000) (q : Fin 128) (r : Fin 50000)
    (hx : x (ix2 p q) = A (ix2 r q)) (hb : b (ix2 (0 : Fin 1) q) = R (ix2 (0 : Fin 1) q)) :
    k2_pay1 (F := Ideal) x b (ix2 p q) = Cert.ReferenceIdeal.Stage.brelurow (F := Ideal) A R (ix2 r q) := by
  rw [r2_pay_apply, r2_stage_apply, hx, hb]

/-! ## The blocks at a grid point -/

/-- The block indices at grid point t, checked at each of the ten points: the aggregate's window and the output's window
    are both at block (t, 0), the bias row's window is at block (0, 0) throughout. -/
theorem r2_idx : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- Entry (p, q) of the aggregate's block at point t is entry (5000 t + p, q) of the array: an entry of a block sits, on
    each axis, at block index × block size + its own coordinate, here t · 5000 + p and 0 · 128 + q. -/
theorem r2_read_rows (c : Dev nD) (t : Fin cfg2.N) (p : Fin 5000) (q : Fin 128) (r : Fin 50000)
    (hr : r.val = 5000 * t.val + p.val) :
    (iblk2 V c 0 t : Vec Ideal S5000x128 .f32) (ix2 p q) = (V c main_v45 : Vec Ideal S50000x128 .f32) (ix2 r q) := by
  obtain ⟨ea0, ea1, -, -, -, -⟩ := r2_idx t
  unfold iblk2
  rw [View.read_apply]
  show V c main_v45 _ = V c main_v45 _
  congr 1
  funext a
  apply Fin.ext
  match a with
  | ⟨0, _⟩ => show win2_0.index t (0 : Fin 2) * 5000 + 1 * p.val = r.val; rw [ea0, hr]; omega
  | ⟨1, _⟩ => show win2_0.index t (1 : Fin 2) * 128 + 1 * q.val = q.val; rw [ea1]; omega

/-- The bias row's block is the whole one-row array at every point: its entry (0, q) is the array's entry (0, q), at
    0 · 1 + 0 and 0 · 128 + q. -/
theorem r2_read_bias (c : Dev nD) (t : Fin cfg2.N) (q : Fin 128) :
    (iblk2 V c 1 t : Vec Ideal S1x128 .f32) (ix2 (0 : Fin 1) q) = (V c main_v46 : Vec Ideal S1x128 .f32) (ix2 (0 : Fin 1) q) := by
  obtain ⟨-, -, eb0, eb1, -, -⟩ := r2_idx t
  unfold iblk2
  rw [View.read_apply]
  show V c main_v46 _ = V c main_v46 _
  congr 1
  funext a
  apply Fin.ext
  match a with
  | ⟨0, _⟩ => show win2_1.index t (0 : Fin 2) * 1 + 1 * 0 = 0; rw [eb0]
  | ⟨1, _⟩ => show win2_1.index t (1 : Fin 2) * 128 + 1 * q.val = q.val; rw [eb1]; omega

/-! ## From the blocks to the array -/

/-- What grid point t writes back is the stage's array read through the output's block at t, rows 5000 t … 5000 t + 4999.
    The body's one store fills its whole block with the payload of the two loaded blocks. Entry j = (p, q) of that block
    lands at (5000 t + p, q) of the output array; there the stage reads the aggregate at (5000 t + p, q), which is the
    loaded block's entry (p, q), and the bias row at (0, q), which is the loaded row's entry (0, q). -/
theorem r2_flushed (c : Dev nD) (t : Fin cfg2.N) :
    (dat2 (F := Ideal) V c).flushed 2 t
      = ((cfg2.win 2).blk t).view.read (Elt Ideal) (Cert.ReferenceIdeal.Stage.brelurow (F := Ideal) (V c main_v45) (V c main_v46)) := by
  show (cfg2.win 2).cut (grid2.coords t) ((dat2 V c).after 2 t) = _
  rw [after2_2]
  unfold out2_2
  rw [View.canon_unit_zero r2_hz]
  simp only [View.ld_unit_zero (S := S5000x128) r2_hz, View.ld_unit_zero (S := S1x128) r2_hz]
  funext j
  have hN : cfg2.N = 10 := N_2
  have ht : t.val < 10 := by have := t.isLt; omega
  have hp : (j 0).val < 5000 := (j 0).isLt
  have hq : (j 1).val < 128 := (j 1).isLt
  obtain ⟨-, -, -, -, eo0, eo1⟩ := r2_idx t
  -- the entry inside the block, by its two coordinates
  have hl : (cfg2.win 2).xinj (grid2.coords t) j = ix2 (⟨(j 0).val, hp⟩ : Fin 5000) (⟨(j 1).val, hq⟩ : Fin 128) :=
    funext fun a => match a with | ⟨0, _⟩ => rfl | ⟨1, _⟩ => rfl
  -- the same entry's place in the output array: t · 5000 + p on the rows, 0 · 128 + q on the columns
  have hr : ((cfg2.win 2).blk t).view.emb j
      = ix2 (⟨5000 * t.val + (j 0).val, by omega⟩ : Fin 50000) (⟨(j 1).val, hq⟩ : Fin 128) := by
    funext a
    apply Fin.ext
    match a with
    | ⟨0, _⟩ => show win2_2.index t (0 : Fin 2) * 5000 + 1 * (j 0).val = 5000 * t.val + (j 0).val; rw [eo0]; omega
    | ⟨1, _⟩ => show win2_2.index t (1 : Fin 2) * 128 + 1 * (j 1).val = (j 1).val; rw [eo1]; omega
  show k2_pay1 (iblk2 V c 0 t) (iblk2 V c 1 t) ((cfg2.win 2).xinj (grid2.coords t) j)
    = Cert.ReferenceIdeal.Stage.brelurow (F := Ideal) (V c main_v45) (V c main_v46) (((cfg2.win 2).blk t).view.emb j)
  rw [hl, hr]
  exact r2_point _ _ _ _ _ _ _ (r2_read_rows V c t _ _ _ rfl) (r2_read_bias V c t _)

/-- Every entry (r, q) of the output array lies in the block of the point r / 5000, whose rows are
    (r / 5000) · 5000 … (r / 5000) · 5000 + 4999 and whose columns are all 128; and every point writes its block back. -/
theorem r2_cover (i : S50000x128.Idx) :
    ∃ t : Fin cfg2.N, (cfg2.win 2).flush t = true ∧ i ∈ ((cfg2.win 2).blk t).view.set := by
  have hN : cfg2.N = 10 := N_2
  have hi0 : (i 0).val < 50000 := (i 0).isLt
  have hi1 : (i 1).val < 128 := (i 1).isLt
  let t : Fin cfg2.N := ⟨(i 0).val / 5000, by omega⟩
  obtain ⟨-, -, -, -, eo0, eo1⟩ := r2_idx t
  refine ⟨t, flush2_2 t, ?_⟩
  show i ∈ ((View.whole main_v47).slice (win2_2.rect t)).set
  rw [View.set_slice_whole, Rect.mem_set_unit]
  intro a
  match a with
  | ⟨0, _⟩ =>
    show win2_2.index t (0 : Fin 2) * 5000 ≤ (i 0).val ∧ (i 0).val < win2_2.index t (0 : Fin 2) * 5000 + 5000
    rw [eo0]
    show (i 0).val / 5000 * 5000 ≤ (i 0).val ∧ (i 0).val < (i 0).val / 5000 * 5000 + 5000
    omega
  | ⟨1, _⟩ =>
    show win2_2.index t (1 : Fin 2) * 128 ≤ (i 1).val ∧ (i 1).val < win2_2.index t (1 : Fin 2) * 128 + 128
    rw [eo1]
    omega

/-- After the region its output array holds the stage's whole-array value of the arrays the region found. -/
theorem final2 (c : Dev nD) :
    (dat2 (F := Ideal) V c).arrAt 2 cfg2.N = Cert.ReferenceIdeal.Stage.brelurow (F := Ideal) (V c main_v45) (V c main_v46) :=
  (dat2 (F := Ideal) V c).arrAt_eq_of_cover 2 _ (fun t _ => r2_flushed V c t) r2_cover

end Cert.KernelIdeal.Hand

end
-- ==== Proof.Region7.lean ====
/-
Region 7, the output layer. Grid point t takes rows 5000t … 5000t+4999 of h, the whole 128 × 64 weight matrix and the one-row bias, and writes those rows of h · W + b; the ten row blocks tile the 50000 rows.
-/
import proofs.«173057_j730144440424_1_alg».proof.Proof.Gen.KernelIdeal.Frame
import proofs.«173057_j730144440424_1_alg».proof.Proof.Stage
import Idealize.ShloMosaic.Lib.Pipeline.Value
import Idealize.ShloMosaic.Lib.ValueIdx
import Idealize.ShloMosaic.Lib.ValueLayout
import Idealize.ShloMosaic.PureOps.Ideal.Laws

noncomputable section

open Idealize.ShloMosaic Idealize.ShloMosaic.TcCoe Idealize.SL.Sem
open Idealize.ShloMosaic.Pipeline (Dat)

namespace Cert.KernelIdeal.Hand

open Cert.KernelIdeal Cert.KernelIdeal.Gen

namespace OutputLayer

/-! ## The block product h_t · W at an entry

The body multiplies a 5000 × 128 block of hidden features by the 128 × 64 output weights into a zero accumulator.
On the extended reals entry (p, q) of the result is Σ_k block(p, k) · W(k, q), k over the 128 hidden features: the
left operand is read at the entry's row and at k, the right operand at k and at the entry's column. -/

/-- Left operand, row axis: the entry's row. -/
theorem tile_left_row (j : S5000x64.Idx) (u : dot_S5000x128_S128x64_S5000x64_1_0_0_1_n_n.contr.Idx) :
    (dot_S5000x128_S128x64_S5000x64_1_0_0_1_n_n.lhsIdx j u 0).val = (j 0).val := by
  unfold DotDims.lhsIdx
  rw [dif_neg (show ¬(0 : Fin S5000x128.rank) ∈ dot_S5000x128_S128x64_S5000x64_1_0_0_1_n_n.lhsBatch by decide), dif_pos (show (0 : Fin S5000x128.rank) ∈ dot_S5000x128_S128x64_S5000x64_1_0_0_1_n_n.lhsNonContracting by decide)]
  rfl

/-- Left operand, column axis: the summation index. -/
theorem tile_left_col (j : S5000x64.Idx) (u : dot_S5000x128_S128x64_S5000x64_1_0_0_1_n_n.contr.Idx) :
    (dot_S5000x128_S128x64_S5000x64_1_0_0_1_n_n.lhsIdx j u 1).val = (u ⟨0, by decide⟩).val :=
  dot_S5000x128_S128x64_S5000x64_1_0_0_1_n_n.lhsIdx_val_of_single rfl j u

/-- Right operand, row axis: the summation index. -/
theorem tile_right_row (j : S5000x64.Idx) (u : dot_S5000x128_S128x64_S5000x64_1_0_0_1_n_n.contr.Idx) :
    (dot_S5000x128_S128x64_S5000x64_1_0_0_1_n_n.rhsIdx j u 0).val = (u ⟨0, by decide⟩).val :=
  dot_S5000x128_S128x64_S5000x64_1_0_0_1_n_n.rhsIdx_val_of_single rfl j u

/-- Right operand, column axis: the entry's column. -/
theorem tile_right_col (j : S5000x64.Idx) (u : dot_S5000x128_S128x64_S5000x64_1_0_0_1_n_n.contr.Idx) :
    (dot_S5000x128_S128x64_S5000x64_1_0_0_1_n_n.rhsIdx j u 1).val = (j 1).val := by
  unfold DotDims.rhsIdx
  rw [dif_neg (show ¬(1 : Fin S128x64.rank) ∈ dot_S5000x128_S128x64_S5000x64_1_0_0_1_n_n.rhsBatch by decide), dif_pos (show (1 : Fin S128x64.rank) ∈ dot_S5000x128_S128x64_S5000x64_1_0_0_1_n_n.rhsNonContracting by decide)]
  rfl

/-- Entry (p, q) of the block product is Σ_{k < 128} l(p, k) · r(k, q). -/
theorem tile_prod_apply (l : FVec Ideal S5000x128 .bf16) (r : FVec Ideal S128x64 .bf16) (p : Fin 5000) (q : Fin 64) :
    FloatOps.matmul dot_S5000x128_S128x64_S5000x64_1_0_0_1_n_n none l r (constant S5000x64 .f32 0x00000000#32) (ValueIdx.ix2 p q)
      = ∑ k : Fin 128, l (ValueIdx.ix2 p k) * r (ValueIdx.ix2 k q) := by
  rw [Ideal.matmul_constant_zero_apply, ← Equiv.sum_comp (ValueIdx.contrEquiv1 dot_S5000x128_S128x64_S5000x64_1_0_0_1_n_n 128 rfl rfl).symm]
  refine Finset.sum_congr rfl fun k _ => ?_
  have hk := ValueIdx.contrEquiv1_symm_val dot_S5000x128_S128x64_S5000x64_1_0_0_1_n_n 128 rfl rfl k
  have el : dot_S5000x128_S128x64_S5000x64_1_0_0_1_n_n.lhsIdx (ValueIdx.ix2 p q) ((ValueIdx.contrEquiv1 dot_S5000x128_S128x64_S5000x64_1_0_0_1_n_n 128 rfl rfl).symm k) = ValueIdx.ix2 p k := funext fun a => Fin.ext (by
    match a with
    | ⟨0, _⟩ => exact tile_left_row _ _
    | ⟨1, _⟩ => exact (tile_left_col _ _).trans hk)
  have er : dot_S5000x128_S128x64_S5000x64_1_0_0_1_n_n.rhsIdx (ValueIdx.ix2 p q) ((ValueIdx.contrEquiv1 dot_S5000x128_S128x64_S5000x64_1_0_0_1_n_n 128 rfl rfl).symm k) = ValueIdx.ix2 k q := funext fun a => Fin.ext (by
    match a with
    | ⟨0, _⟩ => exact (tile_right_row _ _).trans hk
    | ⟨1, _⟩ => exact tile_right_col _ _)
  rw [el, er]

/-- The body's value at entry (p, q) of its block: Σ_k h(p, k) · W(k, q) + b(0, q). The block of h is first recast to
    its own shape, which changes nothing; narrowing to the short float type is the identity on the extended reals; the
    one-row bias is spread over the block's rows. -/
theorem body_apply (h : FVec Ideal S5000x128 .f32) (W : FVec Ideal S128x64 .f32) (b : FVec Ideal S1x64 .f32) (p : Fin 5000) (q : Fin 64) :
    k7_pay1 (F := Ideal) h W b (ValueIdx.ix2 p q) = (∑ k : Fin 128, h (ValueIdx.ix2 p k) * W (ValueIdx.ix2 k q)) + b (ValueIdx.ix2 0 q) := by
  unfold k7_pay1
  show addf (F := Ideal) (FloatOps.matmul dot_S5000x128_S128x64_S5000x64_1_0_0_1_n_n none (truncf .bf16 (shapeCast S5000x128 h shapeCasts_S5000x128_S5000x128) bitsLt_bf16_f32) (truncf .bf16 W bitsLt_bf16_f32) (constant S5000x64 .f32 0x00000000#32))
      (broadcastTo S5000x64 (shapeCast S1x64 b shapeCasts_S1x64_S1x64) broadcasts_S1x64_S5000x64) (ValueIdx.ix2 p q) = _
  rw [ValueIdx.addf_apply, tile_prod_apply, shapeCast_self, shapeCast_self]
  rw [broadcastTo_apply b broadcasts_S1x64_S5000x64 (ValueIdx.ix2 p q) (ValueIdx.ix2 0 q) (fun a => match a with
    | ⟨0, _⟩ => by show 0 = if (1 : Nat) = 1 then 0 else _; rw [if_pos rfl]
    | ⟨1, _⟩ => by show q.val = if (64 : Nat) = 1 then 0 else q.val; rw [if_neg (by decide)])]
  rfl

/-! ## The whole-array product h · W at an entry

The stage multiplies the 50000 × 128 array of hidden features by the same 128 × 64 weights with the host's product,
on the extended reals the same sum: entry (P, q) is Σ_k h(P, k) · W(k, q). -/

/-- Left operand, row axis: the entry's row. -/
theorem full_left_row (i : Cert.ReferenceIdeal.S50000x64.Idx) (u : Cert.ReferenceIdeal.dot_S50000x128_S128x64_S50000x64_1_0_0_1_n_n.contr.Idx) :
    (Cert.ReferenceIdeal.dot_S50000x128_S128x64_S50000x64_1_0_0_1_n_n.lhsIdx i u 0).val = (i 0).val := by
  unfold DotDims.lhsIdx
  rw [dif_neg (show ¬(0 : Fin Cert.ReferenceIdeal.S50000x128.rank) ∈ Cert.ReferenceIdeal.dot_S50000x128_S128x64_S50000x64_1_0_0_1_n_n.lhsBatch by decide), dif_pos (show (0 : Fin Cert.ReferenceIdeal.S50000x128.rank) ∈ Cert.ReferenceIdeal.dot_S50000x128_S128x64_S50000x64_1_0_0_1_n_n.lhsNonContracting by decide)]
  rfl

/-- Left operand, column axis: the summation index. -/
theorem full_left_col (i : Cert.ReferenceIdeal.S50000x64.Idx) (u : Cert.ReferenceIdeal.dot_S50000x128_S128x64_S50000x64_1_0_0_1_n_n.contr.Idx) :
    (Cert.ReferenceIdeal.dot_S50000x128_S128x64_S50000x64_1_0_0_1_n_n.lhsIdx i u 1).val = (u ⟨0, by decide⟩).val :=
  Cert.ReferenceIdeal.dot_S50000x128_S128x64_S50000x64_1_0_0_1_n_n.lhsIdx_val_of_single rfl i u

/-- Right operand, row axis: the summation index. -/
theorem full_right_row (i : Cert.ReferenceIdeal.S50000x64.Idx) (u : Cert.ReferenceIdeal.dot_S50000x128_S128x64_S50000x64_1_0_0_1_n_n.contr.Idx) :
    (Cert.ReferenceIdeal.dot_S50000x128_S128x64_S50000x64_1_0_0_1_n_n.rhsIdx i u 0).val = (u ⟨0, by decide⟩).val :=
  Cert.ReferenceIdeal.dot_S50000x128_S128x64_S50000x64_1_0_0_1_n_n.rhsIdx_val_of_single rfl i u

/-- Right operand, column axis: the entry's column. -/
theorem full_right_col (i : Cert.ReferenceIdeal.S50000x64.Idx) (u : Cert.ReferenceIdeal.dot_S50000x128_S128x64_S50000x64_1_0_0_1_n_n.contr.Idx) :
    (Cert.ReferenceIdeal.dot_S50000x128_S128x64_S50000x64_1_0_0_1_n_n.rhsIdx i u 1).val = (i 1).val := by
  unfold DotDims.rhsIdx
  rw [dif_neg (show ¬(1 : Fin Cert.ReferenceIdeal.S128x64.rank) ∈ Cert.ReferenceIdeal.dot_S50000x128_S128x64_S50000x64_1_0_0_1_n_n.rhsBatch by decide), dif_pos (show (1 : Fin Cert.ReferenceIdeal.S128x64.rank) ∈ Cert.ReferenceIdeal.dot_S50000x128_S128x64_S50000x64_1_0_0_1_n_n.rhsNonContracting by decide)]
  rfl

/-- Entry (P, q) of the whole-array product is Σ_{k < 128} h(P, k) · W(k, q). -/
theorem full_prod_apply (h : FVec Ideal Cert.ReferenceIdeal.S50000x128 .f32) (W : FVec Ideal Cert.ReferenceIdeal.S128x64 .f32) (P : Fin 50000) (q : Fin 64) :
    FloatOps.dotGeneral Cert.ReferenceIdeal.dot_S50000x128_S128x64_S50000x64_1_0_0_1_n_n none HostSchedule.single h W (ValueIdx.ix2 P q)
      = ∑ k : Fin 128, h (ValueIdx.ix2 P k) * W (ValueIdx.ix2 k q) := by
  rw [Ideal.dotGeneral_apply, ← Equiv.sum_comp (ValueIdx.contrEquiv1 Cert.ReferenceIdeal.dot_S50000x128_S128x64_S50000x64_1_0_0_1_n_n 128 rfl rfl).symm]
  refine Finset.sum_congr rfl fun k _ => ?_
  have hk := ValueIdx.contrEquiv1_symm_val Cert.ReferenceIdeal.dot_S50000x128_S128x64_S50000x64_1_0_0_1_n_n 128 rfl rfl k
  have el : Cert.ReferenceIdeal.dot_S50000x128_S128x64_S50000x64_1_0_0_1_n_n.lhsIdx (ValueIdx.ix2 P q) ((ValueIdx.contrEquiv1 Cert.ReferenceIdeal.dot_S50000x128_S128x64_S50000x64_1_0_0_1_n_n 128 rfl rfl).symm k) = ValueIdx.ix2 P k := funext fun a => Fin.ext (by
    match a with
    | ⟨0, _⟩ => exact full_left_row _ _
    | ⟨1, _⟩ => exact (full_left_col _ _).trans hk)
  have er : Cert.ReferenceIdeal.dot_S50000x128_S128x64_S50000x64_1_0_0_1_n_n.rhsIdx (ValueIdx.ix2 P q) ((ValueIdx.contrEquiv1 Cert.ReferenceIdeal.dot_S50000x128_S128x64_S50000x64_1_0_0_1_n_n 128 rfl rfl).symm k) = ValueIdx.ix2 k q := funext fun a => Fin.ext (by
    match a with
    | ⟨0, _⟩ => exact (full_right_row _ _).trans hk
    | ⟨1, _⟩ => exact full_right_col _ _)
  rw [el, er]

/-- The stage at entry (P, q): Σ_k h(P, k) · W(k, q) + b(0, q), the one-row bias spread over the 50000 rows. -/
theorem linrow64_apply (h : FVec Ideal Cert.ReferenceIdeal.S50000x128 .f32) (W : FVec Ideal Cert.ReferenceIdeal.S128x64 .f32) (b : FVec Ideal Cert.ReferenceIdeal.S1x64 .f32) (P : Fin 50000) (q : Fin 64) :
    Cert.ReferenceIdeal.Stage.linrow64 (F := Ideal) h W b (ValueIdx.ix2 P q) = (∑ k : Fin 128, h (ValueIdx.ix2 P k) * W (ValueIdx.ix2 k q)) + b (ValueIdx.ix2 0 q) := by
  show addf (F := Ideal) (FloatOps.dotGeneral Cert.ReferenceIdeal.dot_S50000x128_S128x64_S50000x64_1_0_0_1_n_n none HostSchedule.single h W)
      (broadcastInDim Cert.ReferenceIdeal.S50000x64 ![0, 1] _ b) (ValueIdx.ix2 P q) = _
  rw [ValueIdx.addf_apply, full_prod_apply]
  rw [broadcastInDim_apply _ _ b (ValueIdx.ix2 P q) (ValueIdx.ix2 0 q) (fun a => match a with
    | ⟨0, _⟩ => by show 0 = if (1 : Nat) = 1 then 0 else _; rw [if_pos rfl]
    | ⟨1, _⟩ => by show q.val = if (64 : Nat) = 1 then 0 else q.val; rw [if_neg (by decide)])]

end OutputLayer

-- `V`: the contents of the TensorCore's buffers when the region is entered.
variable (V : (c : Dev nD) → (b : Ref sig .tc) → Buf (Elt Ideal) ((c : Thread nD τ).loc b))

example : Pipeline.arrRef spec7 0 = main_v79 := rfl
example : Pipeline.arrRef spec7 1 = main_arg10 := rfl
example : Pipeline.arrRef spec7 2 = main_v80 := rfl

namespace OutputLayer

/-! ## The blocks

At grid point t the hidden-feature window's block and the output window's block sit at block index (t, 0): rows
5000t … 5000t + 4999, all columns. The output weights' and the bias row's windows are whole arrays, block index (0, 0). -/

/-- Both offsets of a rectangle that is the whole block. -/
theorem origin : (![0, 0] : Fin 2 → Nat) = fun _ => 0 := funext fun a => by fin_cases a <;> rfl

/-- Each window's block index, on both axes, at each of the ten grid points. -/
theorem block_indices : ∀ t : Fin cfg7.N,
    win7_0.index t (0 : Fin 2) = t.val ∧ win7_0.index t (1 : Fin 2) = 0
    ∧ win7_1.index t (0 : Fin 2) = 0 ∧ win7_1.index t (1 : Fin 2) = 0
    ∧ win7_2.index t (0 : Fin 2) = 0 ∧ win7_2.index t (1 : Fin 2) = 0
    ∧ win7_3.index t (0 : Fin 2) = t.val ∧ win7_3.index t (1 : Fin 2) = 0 :=
  (by decide +kernel : ∀ t : Fin grid7.N, _)

/-- Entry (p, k) of the hidden-feature window's block at point t is h(5000t + p, k). -/
theorem h_block_apply (c : Dev nD) (t : Fin cfg7.N) (p : Fin 5000) (k : Fin 128) (P : Fin 50000) (hP : P.val = 5000 * t.val + p.val) :
    (iblk7 (F := Ideal) V c 0 t : FVec Ideal S5000x128 .f32) (ValueIdx.ix2 p k) = (V c main_v79 : FVec Ideal S50000x128 .f32) (ValueIdx.ix2 P k) := by
  obtain ⟨e0, e1, -⟩ := block_indices t
  show (V c main_v79 : FVec Ideal S50000x128 .f32) (((cfg7.win 0).blk t).view.emb (ValueIdx.ix2 p k)) = _
  refine congrArg (V c main_v79 : FVec Ideal S50000x128 .f32) (funext fun a => Fin.ext ?_)
  match a with
  | ⟨0, _⟩ => show win7_0.index t (0 : Fin 2) * 5000 + 1 * p.val = P.val; rw [e0, hP]; omega
  | ⟨1, _⟩ => show win7_0.index t (1 : Fin 2) * 128 + 1 * k.val = k.val; rw [e1]; omega

/-- The weights' block is the 128 × 64 weight matrix itself, at every point. -/
theorem w_block_apply (c : Dev nD) (t : Fin cfg7.N) (k : Fin 128) (q : Fin 64) :
    (iblk7 (F := Ideal) V c 1 t : FVec Ideal S128x64 .f32) (ValueIdx.ix2 k q) = (V c main_arg10 : FVec Ideal S128x64 .f32) (ValueIdx.ix2 k q) := by
  obtain ⟨-, -, e0, e1, -⟩ := block_indices t
  show (V c main_arg10 : FVec Ideal S128x64 .f32) (((cfg7.win 1).blk t).view.emb (ValueIdx.ix2 k q)) = _
  refine congrArg (V c main_arg10 : FVec Ideal S128x64 .f32) (funext fun a => Fin.ext ?_)
  match a with
  | ⟨0, _⟩ => show win7_1.index t (0 : Fin 2) * 128 + 1 * k.val = k.val; rw [e0]; omega
  | ⟨1, _⟩ => show win7_1.index t (1 : Fin 2) * 64 + 1 * q.val = q.val; rw [e1]; omega

/-- The bias window's block is the one-row bias itself, at every point. -/
theorem b_block_apply (c : Dev nD) (t : Fin cfg7.N) (z : Fin 1) (q : Fin 64) :
    (iblk7 (F := Ideal) V c 2 t : FVec Ideal S1x64 .f32) (ValueIdx.ix2 z q) = (V c main_v80 : FVec Ideal S1x64 .f32) (ValueIdx.ix2 z q) := by
  obtain ⟨-, -, -, -, e0, e1, -⟩ := block_indices t
  show (V c main_v80 : FVec Ideal S1x64 .f32) (((cfg7.win 2).blk t).view.emb (ValueIdx.ix2 z q)) = _
  refine congrArg (V c main_v80 : FVec Ideal S1x64 .f32) (funext fun a => Fin.ext ?_)
  match a with
  | ⟨0, _⟩ => show win7_2.index t (0 : Fin 2) * 1 + 1 * z.val = z.val; rw [e0]; omega
  | ⟨1, _⟩ => show win7_2.index t (1 : Fin 2) * 64 + 1 * q.val = q.val; rw [e1]; omega

/-- Entry (p, q) of the output window's block at point t is entry (5000t + p, q) of the 50000 × 64 output array. -/
theorem out_block_emb (t : Fin cfg7.N) (p : Fin 5000) (q : Fin 64) (P : Fin 50000) (hP : P.val = 5000 * t.val + p.val) :
    ((cfg7.win 3).blk t).view.emb (ValueIdx.ix2 p q) = (ValueIdx.ix2 P q : S50000x64.Idx) := by
  obtain ⟨-, -, -, -, -, -, e0, e1⟩ := block_indices t
  refine funext fun a => Fin.ext ?_
  match a with
  | ⟨0, _⟩ => show win7_3.index t (0 : Fin 2) * 5000 + 1 * p.val = P.val; rw [e0, hP]; omega
  | ⟨1, _⟩ => show win7_3.index t (1 : Fin 2) * 64 + 1 * q.val = q.val; rw [e1]; omega

/-! ## What a point writes back, and the array after the ten write-backs -/

/-- Point t writes back block t of the stage's array: at entry (p, q) of the block both sides are
    Σ_k h(5000t + p, k) · W(k, q) + b(0, q). -/
theorem flushed_rows (c : Dev nD) (t : Fin cfg7.N) :
    (dat7 (F := Ideal) V c).flushed 3 t
      = ((cfg7.win 3).blk t).view.read (Elt Ideal) (Cert.ReferenceIdeal.Stage.linrow64 (F := Ideal) (V c main_v79) (V c main_arg10) (V c main_v80)) := by
  show (cfg7.win 3).cut (grid7.coords t) ((dat7 (F := Ideal) V c).after 3 t) = _
  rw [after7_3]
  unfold out7_3
  rw [View.canon_unit_zero origin]
  simp only [View.ld_unit_zero (S := S5000x128) origin, View.ld_unit_zero (S := S128x64) origin, View.ld_unit_zero (S := S1x64) origin]
  refine funext fun (j : S5000x64.Idx) => ?_
  obtain ⟨p, q, rfl⟩ : ∃ (p : Fin 5000) (q : Fin 64), j = ValueIdx.ix2 p q := ⟨j 0, j 1, ValueIdx.eq_ix2 j⟩
  have ht : t.val < 10 := lt_of_lt_of_eq t.isLt N_7
  obtain ⟨P, hP⟩ : ∃ P : Fin 50000, P.val = 5000 * t.val + p.val := ⟨⟨5000 * t.val + p.val, by have := p.isLt; omega⟩, rfl⟩
  show k7_pay1 (F := Ideal) (iblk7 V c 0 t) (iblk7 V c 1 t) (iblk7 V c 2 t) (ValueIdx.ix2 p q)
      = Cert.ReferenceIdeal.Stage.linrow64 (F := Ideal) (V c main_v79) (V c main_arg10) (V c main_v80) (((cfg7.win 3).blk t).view.emb (ValueIdx.ix2 p q))
  rw [out_block_emb t p q P hP, linrow64_apply, body_apply, b_block_apply V c t 0 q]
  refine congrArg (· + _) (Finset.sum_congr rfl fun k _ => ?_)
  rw [h_block_apply V c t p k P hP, w_block_apply V c t k q]

/-- Row r of the output array lies in the block of point r / 5000. -/
theorem rows_cover (i : S50000x64.Idx) : ∃ t : Fin cfg7.N, (cfg7.win 3).flush t = true ∧ i ∈ ((cfg7.win 3).blk t).view.set := by
  have h0 : (i 0).val < 50000 := (i 0).isLt
  have h1 : (i 1).val < 64 := (i 1).isLt
  obtain ⟨t, ht⟩ : ∃ t : Fin cfg7.N, t.val = (i 0).val / 5000 := ⟨⟨(i 0).val / 5000, lt_of_lt_of_eq (by omega) N_7.symm⟩, rfl⟩
  obtain ⟨-, -, -, -, -, -, e0, e1⟩ := block_indices t
  refine ⟨t, flush7_3 t, ?_⟩
  show i ∈ ((View.whole main_v81).slice (win7_3.rect t)).set
  rw [View.set_slice_whole, Rect.mem_set_unit]
  intro a
  match a with
  | ⟨0, _⟩ => show win7_3.index t (0 : Fin 2) * 5000 ≤ (i 0).val ∧ (i 0).val < win7_3.index t (0 : Fin 2) * 5000 + 5000; rw [e0, ht]; omega
  | ⟨1, _⟩ => show win7_3.index t (1 : Fin 2) * 64 ≤ (i 1).val ∧ (i 1).val < win7_3.index t (1 : Fin 2) * 64 + 64; rw [e1]; omega

end OutputLayer

/-- After the region its output array holds the stage's whole-array value of the arrays the region found. -/
theorem final7 (c : Dev nD) :
    (dat7 (F := Ideal) V c).arrAt 3 cfg7.N = Cert.ReferenceIdeal.Stage.linrow64 (F := Ideal) (V c main_v79) (V c main_arg10) (V c main_v80) := by
  exact (dat7 (F := Ideal) V c).arrAt_eq_of_cover 3 _ (fun t _ => OutputLayer.flushed_rows V c t) OutputLayer.rows_cover

end Cert.KernelIdeal.Hand

end
-- ==== Proof.Chain.lean ====
/-
  The kernel program's result array, as the network of the argument arrays.

  Name the network's intermediate arrays as the reference composes them:
    h0 = x · W_p + b_p,    z_l = h_{l-1} · W_l,    a_l = agg z_l,    h_l = max(a_l + b_l, 0)   (l = 1, 2, 3),
    out = h3 · W_o + b_o.
  Walking the program's fold forward, the buffer each segment writes holds exactly that array: a region's output
  array is its stage of the arrays the region found (the region lemmas), an aggregation stretch's result is `agg`
  of the array the region before it left, and what a region or a stretch reads besides — a weight matrix, a bias
  row, the edge lists — is as launched or as the first stretches made it. The last boundary's contents at the
  result buffer are therefore `out`, the whole network of the twelve arguments.
-/
import proofs.«173057_j730144440424_1_alg».proof.Proof.Env
import proofs.«173057_j730144440424_1_alg».proof.Proof.Region0
import proofs.«173057_j730144440424_1_alg».proof.Proof.Region1
import proofs.«173057_j730144440424_1_alg».proof.Proof.Region2
import proofs.«173057_j730144440424_1_alg».proof.Proof.Region3
import proofs.«173057_j730144440424_1_alg».proof.Proof.Region4
import proofs.«173057_j730144440424_1_alg».proof.Proof.Region5
import proofs.«173057_j730144440424_1_alg».proof.Proof.Region6
import proofs.«173057_j730144440424_1_alg».proof.Proof.Region7
import Idealize.ShloMosaic.PureOps.Ideal

set_option maxRecDepth 16384

noncomputable section

open Idealize.ShloMosaic Idealize.ShloMosaic.TcCoe Idealize.SL.Sem

namespace Cert.KernelIdeal.Hand

open Cert.KernelIdeal Cert.KernelIdeal.Gen

variable (m : (ℓ : Loc nD τ sig) → Buf (Elt Ideal) ℓ) (ρ : Dev nD → PrngReg) (c : Dev nD)

/-! ## The network's arrays, from the launch memory -/

/-- The projection x · W_p + b_p. -/
abbrev h0 : FVec Ideal Cert.ReferenceIdeal.S50000x128 .f32 := Cert.ReferenceIdeal.Stage.linrow128 (F := Ideal) (m ((c : Thread nD τ).loc main_arg0)) (m ((c : Thread nD τ).loc main_arg2)) (Cert.ReferenceIdeal.Stage.row128 (m ((c : Thread nD τ).loc main_arg3)))
/-- The first layer's transformed features. -/
abbrev z1 : FVec Ideal Cert.ReferenceIdeal.S50000x128 .f32 := Cert.ReferenceIdeal.Stage.mm (F := Ideal) (h0 m c) (m ((c : Thread nD τ).loc main_arg4))
/-- Their aggregate over the edges. -/
abbrev a1 : FVec Ideal Cert.ReferenceIdeal.S50000x128 .f32 := Cert.ReferenceIdeal.Stage.agg (F := Ideal) (m ((c : Thread nD τ).loc main_arg1)) (z1 m c)
/-- The first layer's output. -/
abbrev h1 : FVec Ideal Cert.ReferenceIdeal.S50000x128 .f32 := Cert.ReferenceIdeal.Stage.brelurow (F := Ideal) (a1 m c) (Cert.ReferenceIdeal.Stage.row128 (m ((c : Thread nD τ).loc main_arg5)))
/-- The second layer's transformed features. -/
abbrev z2 : FVec Ideal Cert.ReferenceIdeal.S50000x128 .f32 := Cert.ReferenceIdeal.Stage.mm (F := Ideal) (h1 m c) (m ((c : Thread nD τ).loc main_arg6))
/-- Their aggregate over the edges. -/
abbrev a2 : FVec Ideal Cert.ReferenceIdeal.S50000x128 .f32 := Cert.ReferenceIdeal.Stage.agg (F := Ideal) (m ((c : Thread nD τ).loc main_arg1)) (z2 m c)
/-- The second layer's output. -/
abbrev h2 : FVec Ideal Cert.ReferenceIdeal.S50000x128 .f32 := Cert.ReferenceIdeal.Stage.brelurow (F := Ideal) (a2 m c) (Cert.ReferenceIdeal.Stage.row128 (m ((c : Thread nD τ).loc main_arg7)))
/-- The third layer's transformed features. -/
abbrev z3 : FVec Ideal Cert.ReferenceIdeal.S50000x128 .f32 := Cert.ReferenceIdeal.Stage.mm (F := Ideal) (h2 m c) (m ((c : Thread nD τ).loc main_arg8))
/-- Their aggregate over the edges. -/
abbrev a3 : FVec Ideal Cert.ReferenceIdeal.S50000x128 .f32 := Cert.ReferenceIdeal.Stage.agg (F := Ideal) (m ((c : Thread nD τ).loc main_arg1)) (z3 m c)
/-- The third layer's output. -/
abbrev h3 : FVec Ideal Cert.ReferenceIdeal.S50000x128 .f32 := Cert.ReferenceIdeal.Stage.brelurow (F := Ideal) (a3 m c) (Cert.ReferenceIdeal.Stage.row128 (m ((c : Thread nD τ).loc main_arg9)))
/-- The network's result h3 · W_o + b_o. -/
abbrev out : FVec Ideal Cert.ReferenceIdeal.S50000x64 .f32 := Cert.ReferenceIdeal.Stage.linrow64 (F := Ideal) (h3 m c) (m ((c : Thread nD τ).loc main_arg10)) (Cert.ReferenceIdeal.Stage.row64 (m ((c : Thread nD τ).loc main_arg11)))

/-- `out` is the reference's network applied to the twelve argument arrays. -/
theorem out_eq_model : out m c = Cert.ReferenceIdeal.Stage.model (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) := rfl

/-! ## The program's buffers hold those arrays -/

/-- After region 0 the projection's buffer holds h0. -/
theorem act_h0 : W4 m ρ c (Proc.devRef .tc main_v31) = h0 m c := by
  refine (W4_arr m ρ c 3).trans ((final0 (V3 m ρ) c).trans ?_)
  rw [show V3 m ρ c main_arg0 = (m ((c : Thread nD τ).loc main_arg0)) from at3_arg0 m ρ c, show V3 m ρ c main_arg2 = (m ((c : Thread nD τ).loc main_arg2)) from at3_arg2 m ρ c,
    show V3 m ρ c main_v30 = Cert.ReferenceIdeal.Stage.row128 (F := Ideal) (m ((c : Thread nD τ).loc main_arg3)) from at3_v30 m ρ c]

/-- After region 1: z1. -/
theorem act_z1 : W5 m ρ c (Proc.devRef .tc main_v32) = z1 m c := by
  refine (W5_arr m ρ c 2).trans ((final1 (V4 m ρ) c).trans ?_)
  rw [show V4 m ρ c main_v31 = h0 m c from act_h0 m ρ c, show V4 m ρ c main_arg4 = (m ((c : Thread nD τ).loc main_arg4)) from at4_arg4 m ρ c]

/-- After the first aggregation stretch: a1. -/
theorem act_a1 : W6 m ρ c (Proc.devRef .tc main_v45) = a1 m c := by
  refine (at6_v45 m ρ c).trans ?_
  rw [act_z1 m ρ c]

/-- After region 2: h1. -/
theorem act_h1 : W7 m ρ c (Proc.devRef .tc main_v47) = h1 m c := by
  refine (W7_arr m ρ c 2).trans ((final2 (V6 m ρ) c).trans ?_)
  rw [show V6 m ρ c main_v45 = a1 m c from act_a1 m ρ c, show V6 m ρ c main_v46 = Cert.ReferenceIdeal.Stage.row128 (F := Ideal) (m ((c : Thread nD τ).loc main_arg5)) from at6_v46 m ρ c]

/-- After region 3: z2. -/
theorem act_z2 : W8 m ρ c (Proc.devRef .tc main_v48) = z2 m c := by
  refine (W8_arr m ρ c 2).trans ((final3 (V7 m ρ) c).trans ?_)
  rw [show V7 m ρ c main_v47 = h1 m c from act_h1 m ρ c, show V7 m ρ c main_arg6 = (m ((c : Thread nD τ).loc main_arg6)) from at7_arg6 m ρ c]

/-- After the second aggregation stretch: a2. -/
theorem act_a2 : W9 m ρ c (Proc.devRef .tc main_v61) = a2 m c := by
  refine (at9_v61 m ρ c).trans ?_
  rw [act_z2 m ρ c]

/-- After region 4: h2. -/
theorem act_h2 : W10 m ρ c (Proc.devRef .tc main_v63) = h2 m c := by
  refine (W10_arr m ρ c 2).trans ((final4 (V9 m ρ) c).trans ?_)
  rw [show V9 m ρ c main_v61 = a2 m c from act_a2 m ρ c, show V9 m ρ c main_v62 = Cert.ReferenceIdeal.Stage.row128 (F := Ideal) (m ((c : Thread nD τ).loc main_arg7)) from at9_v62 m ρ c]

/-- After region 5: z3. -/
theorem act_z3 : W11 m ρ c (Proc.devRef .tc main_v64) = z3 m c := by
  refine (W11_arr m ρ c 2).trans ((final5 (V10 m ρ) c).trans ?_)
  rw [show V10 m ρ c main_v63 = h2 m c from act_h2 m ρ c, show V10 m ρ c main_arg8 = (m ((c : Thread nD τ).loc main_arg8)) from at10_arg8 m ρ c]

/-- After the third aggregation stretch: a3. -/
theorem act_a3 : W12 m ρ c (Proc.devRef .tc main_v77) = a3 m c := by
  refine (at12_v77 m ρ c).trans ?_
  rw [act_z3 m ρ c]

/-- After region 6: h3. -/
theorem act_h3 : W13 m ρ c (Proc.devRef .tc main_v79) = h3 m c := by
  refine (W13_arr m ρ c 2).trans ((final6 (V12 m ρ) c).trans ?_)
  rw [show V12 m ρ c main_v77 = a3 m c from act_a3 m ρ c, show V12 m ρ c main_v78 = Cert.ReferenceIdeal.Stage.row128 (F := Ideal) (m ((c : Thread nD τ).loc main_arg9)) from at12_v78 m ρ c]

/-- After region 7 the result buffer holds the whole network of the arguments. -/
theorem value : W15 m ρ c (Proc.devRef .tc main_v81) = out m c := by
  refine (W15_arr m ρ c 3).trans ((final7 (V14 m ρ) c).trans ?_)
  rw [show V14 m ρ c main_v79 = h3 m c from (at14_v79 m ρ c).trans (act_h3 m ρ c), show V14 m ρ c main_arg10 = (m ((c : Thread nD τ).loc main_arg10)) from at14_arg10 m ρ c,
    show V14 m ρ c main_v80 = Cert.ReferenceIdeal.Stage.row64 (F := Ideal) (m ((c : Thread nD τ).loc main_arg11)) from at14_v80 m ρ c]

end Cert.KernelIdeal.Hand

end
-- ==== Proof.RefModel.lean ====
/-
  The reference's run ends with its result array at one closed term of the launch arguments. That term is the
  network of Stage.lean applied to the twelve argument arrays: the projection x · W_p + b_p, three layers
  h ↦ max(agg (h · W) + b, 0) over the edge list, and the output layer h · W_o + b_o.
-/
import proofs.«173057_j730144440424_1_alg».proof.Proof.RefRun
import proofs.«173057_j730144440424_1_alg».proof.Proof.Stage

noncomputable section

namespace Cert.ReferenceIdeal.Stage

open Cert.ReferenceIdeal Cert.ReferenceIdeal.Gen Idealize.ShloMosaic Idealize.ShloMosaic.TcCoe Idealize.SL.Sem

variable {F : FTy → Type} [FloatOps F]

set_option maxRecDepth 8192 in
/-- The result term of the reference's run is the network applied to the argument arrays. -/
theorem res_eq (m : (ℓ : Loc nD τ sig) → Buf (Elt F) ℓ) (c : Dev nD) :
    Cert.ReferenceIdeal.Value.res_out0 (F := F) m c
      = model (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) := rfl

end Cert.ReferenceIdeal.Stage

end
-- ==== Proof.lean ====
/-
  The certificate of the graph network: the kernel program, its idealization and the reference agree.

  The three programs take a node-feature array x [50000, 256], an edge array [2, 800000] and the weights and
  biases of a projection, three graph-convolution layers and an output layer, and return out [50000, 64].
  Both idealized programs compute, on the extended reals,
      out = h3 · W_o + b_o,   h_l = max(agg (h_{l-1} · W_l) + b_l, 0),   h0 = x · W_p + b_p,
  where agg z (v, j) = Σ_{k : dst k = v} z(src k, j) · norm(k) over the 850000 edges and self-loops, with norm the
  product of the inverse square roots of the in-degrees of an edge's two ends. The reference does all of it with
  host operations. The kernel program does the edge arithmetic with the same host operations and the five dense
  stages as eight pipelined regions, each over ten blocks of 5000 rows; a block's rows of a matrix product, of a
  bias addition and of an entrywise maximum depend on those rows of the operand only, a product into a zero
  accumulator is the plain sum of products, and a rounding to a narrower float format is the identity on the
  extended reals, so each region leaves in its output array the same array the reference's operation makes.
  No law of arithmetic beyond that is used, and the precondition's finiteness is not needed.

  The frames of the two kernel programs are the generated ones; the reference's frame is its run with the result
  dropped; the ideal pass rewrote nothing, so `preserves` is trivial; `algebraic` puts the kernel program's run
  with its result named (KRun.lean) at the network of the arguments (Chain.lean) beside the reference's run
  (RefRun.lean), whose result term is the same network (RefModel.lean).
-/
import proofs.«173057_j730144440424_1_alg».proof.Defs
import proofs.«173057_j730144440424_1_alg».proof.Proof.Gen.Kernel
import proofs.«173057_j730144440424_1_alg».proof.Proof.Gen.Kernel.Skeleton
import proofs.«173057_j730144440424_1_alg».proof.Proof.Gen.Kernel.Launch
import proofs.«173057_j730144440424_1_alg».proof.Proof.Gen.Kernel.Points
import proofs.«173057_j730144440424_1_alg».proof.Proof.Gen.Kernel.Frame
import proofs.«173057_j730144440424_1_alg».proof.Proof.Gen.KernelIdeal
import proofs.«173057_j730144440424_1_alg».proof.Proof.Gen.KernelIdeal.Skeleton
import proofs.«173057_j730144440424_1_alg».proof.Proof.Gen.KernelIdeal.Launch
import proofs.«173057_j730144440424_1_alg».proof.Proof.Gen.KernelIdeal.Points
import proofs.«173057_j730144440424_1_alg».proof.Proof.Gen.KernelIdeal.Frame
import proofs.«173057_j730144440424_1_alg».proof.Proof.Gen.ReferenceIdeal
import proofs.«173057_j730144440424_1_alg».proof.Proof.Gen.Pre_finite_inputs
import proofs.«173057_j730144440424_1_alg».proof.Proof.KRun
import proofs.«173057_j730144440424_1_alg».proof.Proof.Chain
import proofs.«173057_j730144440424_1_alg».proof.Proof.RefModel
import Idealize.ShloMosaic.Adequacy
import Idealize.ShloMosaic.Init

noncomputable section

namespace Cert.Proof

open Idealize.ShloMosaic Idealize.SL.Sem

/-- The kernel program runs and leaves its arguments as launched. -/
theorem frame_k : Cert.frame_Kernel := fun m ρ _ => Cert.Kernel.Gen.frame m ρ

/-- So does its idealization. -/
theorem frame_ki : Cert.frame_KernelIdeal := fun m ρ _ => Cert.KernelIdeal.Gen.frame m ρ

/-- The reference runs and leaves its arguments as launched: its run, the result dropped. -/
theorem frame_ri : Cert.frame_ReferenceIdeal := fun m ρ _ =>
  (θ_run Cert.ReferenceIdeal.defs _ _).mono (fun _ h c => (h c).2) (Cert.ReferenceIdeal.Value.run (F := Ideal) m ρ)

/-- From memories that agree on the arguments both idealized programs end with their result at the network of the
    arguments: the kernel program's by the walk through its regions and stretches, the reference's because its
    result term is that network; the agreement turns one's arguments into the other's. -/
theorem algebraic : Cert.algebraic_KernelIdeal_ReferenceIdeal := by
  intro m ρ m' ρ' _ hagree
  refine ⟨fun c => Cert.KernelIdeal.Hand.out m c, ?_, ?_⟩
  · exact (θ_run Cert.KernelIdeal.defs _ _).mono
      (fun r h c => ⟨(h c).1.trans (Cert.KernelIdeal.Hand.value m ρ c), (h c).2⟩)
      (Cert.KernelIdeal.Hand.run_named (F := Ideal) m ρ)
  · refine (θ_run Cert.ReferenceIdeal.defs _ _).mono (fun _ h c => ⟨(h c).1.trans ?_, (h c).2⟩)
      (Cert.ReferenceIdeal.Value.run (F := Ideal) m' ρ')
    obtain ⟨e0, e1, e2, e3, e4, e5, e6, e7, e8, e9, e10, e11⟩ := hagree c
    refine (Cert.ReferenceIdeal.Stage.res_eq (F := Ideal) m' c).trans ?_
    rw [e0, e1, e2, e3, e4, e5, e6, e7, e8, e9, e10, e11]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
